-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x9 : Shape := ⟨2, ![4000000, 9]⟩
abbrev S4096x3 : Shape := ⟨2, ![4096, 3]⟩
abbrev S4096x9 : Shape := ⟨2, ![4096, 9]⟩
abbrev S4096x1 : Shape := ⟨2, ![4096, 1]⟩
abbrev S4096 : Shape := ⟨1, ![4096]⟩
abbrev S4000000x3x3 : Shape := ⟨3, ![4000000, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x9, .f32⟩
  | .hbm, ⟨2, _⟩ => ⟨S4000000x3x3, .f32⟩
  | .local _ .vmem, ⟨0, _⟩ => ⟨S4096x3, .f32⟩
  | .local _ .vmem, ⟨1, _⟩ => ⟨S4096x3, .f32⟩
  | .local _ .vmem, ⟨2, _⟩ => ⟨S4096x9, .f32⟩
  | .local _ .vmem, ⟨3, _⟩ => ⟨S4096x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  shapeCasts_S4096x1_S4096 : S4096x1.ShapeCasts S4096
  slices_S4096x3_o0_1_S4096x1 : S4096x3.Slices ![0, 1] S4096x1
  slices_S4096x3_o0_2_S4096x1 : S4096x3.Slices ![0, 2] S4096x1
  shapeCasts_S4096_S4096x1 : S4096.ShapeCasts S4096x1
  concatenates_S4096x1_S4096x1_S4096x1_S4096x1_S4096x1_S4096x1_S4096x1_S4096x1_S4096x1_S4096x9_d1 : Shape.Concatenates [S4096x1, S4096x1, S4096x1, S4096x1, S4096x1, S4096x1, S4096x1, S4096x1, S4096x1] S4096x9 1
  inb_S4096x9_S4096x9_0_0 : ∀ a, (![0, 0] : Fin 2 → Nat) a + S4096x9.size a ≤ S4096x9.size a
  h_S4096x9 : 0 < S4096x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x3.size a < S4000000x3.size a
  hwx0_0 : ∀ i : grid0.Coords, EltTy.bits .f32 = 32 ∨ (Rect.unit (s := S4000000x3) (fun a => cc0_transform_0 i a * S4096x3.size a) (fun a => (Pipeline.Clip.of (cc0_transform_0 i a) (S4096x3.size a) (S4000000x3.size a)).extent (S4096x3.size a)) fun a => Pipeline.Clip.inb (Pipeline.Clip.ok_of (hstart0_0 i a))).WholeWords (EltTy.packing .f32)
  hwxs0_0 : ∀ i : grid0.Coords, EltTy.bits .f32 = 32 ∨ (Rect.unit (s := S4096x3) (fun _ => 0) (fun a => (Pipeline.Clip.of (cc0_transform_0 i a) (S4096x3.size a) (S4000000x3.size a)).extent (S4096x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x9.size a < S4000000x9.size a
  hwx0_1 : ∀ i : grid0.Coords, EltTy.bits .f32 = 32 ∨ (Rect.unit (s := S4000000x9) (fun a => cc0_transform_1 i a * S4096x9.size a) (fun a => (Pipeline.Clip.of (cc0_transform_1 i a) (S4096x9.size a) (S4000000x9.size a)).extent (S4096x9.size a)) fun a => Pipeline.Clip.inb (Pipeline.Clip.ok_of (hstart0_1 i a))).WholeWords (EltTy.packing .f32)
  hwxs0_1 : ∀ i : grid0.Coords, EltTy.bits .f32 = 32 ∨ (Rect.unit (s := S4096x9) (fun _ => 0) (fun a => (Pipeline.Clip.of (cc0_transform_1 i a) (S4096x9.size a) (S4000000x9.size a)).extent (S4096x9.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S4096x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S4096x9.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩
abbrev S3x3 : Shape := ⟨2, ![3, 3]⟩
abbrev S4000000x1x1 : Shape := ⟨3, ![4000000, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S_, .f32⟩
  | .hbm, ⟨2, _⟩ => ⟨S4000000x3, .f32⟩
  | .hbm, ⟨3, _⟩ => ⟨S4000000x3, .f32⟩
  | .hbm, ⟨4, _⟩ => ⟨S4000000x3, .f32⟩
  | .hbm, ⟨5, _⟩ => ⟨S_, .f32⟩
  | .hbm, ⟨6, _⟩ => ⟨S4000000, .f32⟩
  | .hbm, ⟨7, _⟩ => ⟨S4000000x1, .f32⟩
  | .hbm, ⟨8, _⟩ => ⟨S4000000x1, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S4000000x1, .f32⟩
  | .hbm, ⟨19, _⟩ => ⟨S4000000x1, .f32⟩
  | .hbm, ⟨20, _⟩ => ⟨S4000000x1, .f32⟩
  | .hbm, ⟨21, _⟩ => ⟨S4000000x3, .f32⟩
  | .hbm, ⟨22, _⟩ => ⟨S4000000, .f32⟩
  | .hbm, ⟨23, _⟩ => ⟨S4000000x1, .f32⟩
  | .hbm, ⟨24, _⟩ => ⟨S4000000x1, .f32⟩
  | .hbm, ⟨25, _⟩ => ⟨S4000000x1, .f32⟩
  | .hbm, ⟨26, _⟩ => ⟨S4000000x3, .f32⟩
  | .hbm, ⟨27, _⟩ => ⟨S4000000, .f32⟩
  | .hbm, ⟨28, _⟩ => ⟨S4000000x1, .f32⟩
  | .hbm, ⟨29, _⟩ => ⟨S4000000x1, .f32⟩
  | .hbm, ⟨30, _⟩ => ⟨S4000000x1, .f32⟩
  | .hbm, ⟨31, _⟩ => ⟨S4000000x3, .f32⟩
  | .hbm, ⟨32, _⟩ => ⟨S4000000x1x3, .f32⟩
  | .hbm, ⟨33, _⟩ => ⟨S4000000x1x3, .f32⟩
  | .hbm, ⟨34, _⟩ => ⟨S4000000x1x3, .f32⟩
  | .hbm, ⟨35, _⟩ => ⟨S4000000x3x3, .f32⟩
  | .hbm, ⟨36, _⟩ => ⟨S4000000x3x3, .f32⟩
  | .hbm, ⟨37, _⟩ => ⟨S4000000x1, .f32⟩
  | .hbm, ⟨38, _⟩ => ⟨S4000000x1, .f32⟩
  | .hbm, ⟨39, _⟩ => ⟨S4000000x1, .f32⟩
  | .hbm, ⟨40, _⟩ => ⟨S_, .f32⟩
  | .hbm, ⟨41, _⟩ => ⟨S4000000x1, .f32⟩
  | .hbm, ⟨42, _⟩ => ⟨S4000000x1, .f32⟩
  | .hbm, ⟨43, _⟩ => ⟨S4000000x1, .f32⟩
  | .hbm, ⟨44, _⟩ => ⟨S_, .f32⟩
  | .hbm, ⟨45, _⟩ => ⟨S4000000x1, .f32⟩
  | .hbm, ⟨46, _⟩ => ⟨S4000000x1, .f32⟩
  | .hbm, ⟨47, _⟩ => ⟨S4000000x1, .f32⟩
  | .hbm, ⟨48, _⟩ => ⟨S3x3, .i32⟩
  | .hbm, ⟨49, _⟩ => ⟨S3x3, .i32⟩
  | .hbm, ⟨50, _⟩ => ⟨S_, .i32⟩
  | .hbm, ⟨51, _⟩ => ⟨S3x3, .i32⟩
  | .hbm, ⟨52, _⟩ => ⟨S3x3, .i32⟩
  | .hbm, ⟨53, _⟩ => ⟨S3x3, .i1⟩
  | .hbm, ⟨54, _⟩ => ⟨S3x3, .f32⟩
  | .hbm, ⟨55, _⟩ => ⟨S4000000x3x3, .f32⟩
  | .hbm, ⟨56, _⟩ => ⟨S4000000x1x1, .f32⟩
  | .hbm, ⟨57, _⟩ => ⟨S4000000x3x3, .f32⟩
  | .hbm, ⟨58, _⟩ => ⟨S4000000x3x3, .f32⟩
  | .hbm, ⟨59, _⟩ => ⟨S4000000x3x3, .f32⟩
  | .hbm, ⟨60, _⟩ => ⟨S4000000x1x1, .f32⟩
  | .hbm, ⟨61, _⟩ => ⟨S4000000x3x3, .f32⟩
  | .hbm, ⟨62, _⟩ => ⟨S4000000x3x3, .f32⟩
  | .hbm, ⟨63, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_2 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x3_S4000000_d1 : S4000000x3.ReducesTo [1] S4000000
  h_S_ : 0 < S_.numel
  bcast_S4000000_S4000000x1_0 : S4000000.BroadcastsInDim S4000000x1 (![0] : Fin 1 → Fin S4000000x1.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S_S4000000x1 : S_.BroadcastsInDim S4000000x1 (![] : Fin 0 → Fin S4000000x1.rank)
  bcast_S_S3x3 : S_.BroadcastsInDim S3x3 (![] : Fin 0 → Fin S3x3.rank)
  bcast_S3x3_S4000000x3x3_1_2 : S3x3.BroadcastsInDim S4000000x3x3 (![1, 2] : Fin 2 → Fin S4000000x3x3.rank)
  bcast_S4000000x1_S4000000x1x1_0_1 : S4000000x1.BroadcastsInDim S4000000x1x1 (![0, 1] : Fin 2 → Fin S4000000x1x1.rank)
  bcast_S4000000x1x1_S4000000x3x3_0_1_2 : S4000000x1x1.BroadcastsInDim S4000000x3x3 (![0, 1, 2] : Fin 3 → Fin S4000000x3x3.rank)
  dot_S4000000x3x3_S4000000x3x3_S4000000x3x3_2_1_1_2_0_0_wf : DotDims.WF S4000000x3x3 S4000000x3x3 S4000000x3x3 [2] [1] [1] [2] [0] [0]

variable [Facts₀]

def dot_S4000000x3x3_S4000000x3x3_S4000000x3x3_2_1_1_2_0_0 : DotDims S4000000x3x3 S4000000x3x3 S4000000x3x3 where
  lhsContracting := [2]
  rhsContracting := [1]
  lhsNonContracting := [1]
  rhsNonContracting := [2]
  lhsBatch := [0]
  rhsBatch := [0]
  wf := dot_S4000000x3x3_S4000000x3x3_S4000000x3x3_2_1_1_2_0_0_wf

class Facts : Prop extends Facts₀ where

variable [Facts]
-- ==== Proof.RowSpec.lean ====
/-
  One row of the result, as a function of the row's three input entries.

  The kernel maps a row `(a, b, c)` of the input to nine numbers. With `x = a + ε`, `y = b + ε`, `z = c + ε`,
  `s = (x·x + y·y) + z·z`, `θ = √s`, `B = (1 − cos θ) / s` and `C = (1 − sin θ / θ) / s`, the nine numbers are the
  entries, row by row, of the 3×3 matrix `I + B·K + C·K²` for the skew matrix `K` of `(x, y, z)`, written out:
  the diagonal entries are `1 + C·(0 − (sum of the two other squares))`, the off-diagonal ones `±B·(a coordinate)
  + C·(a product of two coordinates)`, a negated `B` written `0 − B`.
  Everything here is stated for any float instance, operation by operation, so that the same function describes
  the stored block at the word level and over the extended reals.
-/
import Idealize.ShloMosaic.PureOps

noncomputable section

namespace Cert.RowSpec

open Idealize.ShloMosaic

variable {F : FTy → Type} [FloatOps F]

/-- The shift `ε` added to every input entry (the f32 nearest `1e-10`). -/
def eps : F .f32 := FloatOps.ofBits .f32 0x2EDBE6FF#32
/-- The constant one. -/
def one : F .f32 := FloatOps.ofBits .f32 0x3F800000#32
/-- The constant zero. -/
def zero : F .f32 := FloatOps.ofBits .f32 0x00000000#32

/-- `s = (x·x + y·y) + z·z`. -/
def sqn (x y z : F .f32) : F .f32 :=
  FloatOps.addf (FloatOps.addf (FloatOps.mulf x x) (FloatOps.mulf y y)) (FloatOps.mulf z z)
/-- `θ = √s`. -/
def theta (x y z : F .f32) : F .f32 := FloatOps.sqrt (sqn x y z)
/-- `B = (1 − cos θ) / s`. -/
def coefB (x y z : F .f32) : F .f32 :=
  FloatOps.divf (FloatOps.subf one (FloatOps.cos (theta x y z))) (sqn x y z)
/-- `C = (1 − sin θ / θ) / s`. -/
def coefC (x y z : F .f32) : F .f32 :=
  FloatOps.divf (FloatOps.subf one (FloatOps.divf (FloatOps.sin (theta x y z)) (theta x y z))) (sqn x y z)

/-- A diagonal entry: `1 + C·(0 − (u·u + v·v))` for the two coordinates `u`, `v` off the entry's axis. -/
def diag (C u v : F .f32) : F .f32 :=
  FloatOps.addf one (FloatOps.mulf C (FloatOps.subf zero (FloatOps.addf (FloatOps.mulf u u) (FloatOps.mulf v v))))
/-- An off-diagonal entry with `−B`: `(0 − B)·w + C·(u·v)`. -/
def offNeg (B C w u v : F .f32) : F .f32 :=
  FloatOps.addf (FloatOps.mulf (FloatOps.subf zero B) w) (FloatOps.mulf C (FloatOps.mulf u v))
/-- An off-diagonal entry with `+B`: `B·w + C·(u·v)`. -/
def offPos (B C w u v : F .f32) : F .f32 :=
  FloatOps.addf (FloatOps.mulf B w) (FloatOps.mulf C (FloatOps.mulf u v))

/-- The nine entries from the shifted coordinates, in row-major order of the 3×3 matrix. -/
def entries (x y z : F .f32) : Fin 9 → F .f32
  | ⟨0, _⟩ => diag (coefC x y z) y z
  | ⟨1, _⟩ => offNeg (coefB x y z) (coefC x y z) z x y
  | ⟨2, _⟩ => offPos (coefB x y z) (coefC x y z) y x z
  | ⟨3, _⟩ => offPos (coefB x y z) (coefC x y z) z x y
  | ⟨4, _⟩ => diag (coefC x y z) x z
  | ⟨5, _⟩ => offNeg (coefB x y z) (coefC x y z) x y z
  | ⟨6, _⟩ => offNeg (coefB x y z) (coefC x y z) y x z
  | ⟨7, _⟩ => offPos (coefB x y z) (coefC x y z) x y z
  | ⟨8, _⟩ => diag (coefC x y z) x y

/-- The nine entries of the row computed from the input row `(a, b, c)`. -/
def row (a b c : F .f32) (j : Fin 9) : F .f32 :=
  entries (FloatOps.addf a eps) (FloatOps.addf b eps) (FloatOps.addf c eps) j

end Cert.RowSpec

end
-- ==== Proof.RowLayout.lean ====
/-
  The layout operations of the kernel body, read at an entry written with the coordinate constructors.

  The body takes column `k` of a [r, 3] block as a unit-width slice cast to a vector of length `r`: entry `i` of that
  vector is entry `(i, k)` of the block. It assembles its result by joining nine [r, 1] columns along the second
  axis: entry `(i, j)` of the join is entry `(i, 0)` of column `j`.
-/
import Idealize.ShloMosaic.Lib.ValueLayout
import Idealize.ShloMosaic.Lib.Pipeline.Value
import Idealize.ShloMosaic.Lib.ValueIdx

namespace Cert.RowLayout

open Idealize.ShloMosaic Idealize.ShloMosaic.ValueIdx

variable {α : Type}

/-- Column `k` of an [r, 3] block, taken as a unit-width slice and cast to a vector, reads at `i` the block's
    entry `(i, k)`. -/
theorem column_apply {r : ℕ} (k : Fin 3) (x : (⟨2, ![r, 3]⟩ : Shape).Idx → α)
    (hs : (⟨2, ![r, 3]⟩ : Shape).Slices ![0, k.val] ⟨2, ![r, 1]⟩)
    (hc : (⟨2, ![r, 1]⟩ : Shape).ShapeCasts ⟨1, ![r]⟩) (i : Fin r) :
    shapeCast ⟨1, ![r]⟩ (extractStridedSlice ⟨2, ![r, 1]⟩ ![0, k.val] x hs) hc (ix1 i) = x (ix2 i k) := by
  refine (shapeCast_apply _ hc (ix1 i) (ix2 i (0 : Fin 1)) ?_).trans ?_
  · rewrite [Shape.rowMajor_val_two, Shape.rowMajor_val_one]
    show i.val * 1 + 0 = i.val
    omega
  · exact extractStridedSlice_apply ![0, k.val] x hs (ix2 i (0 : Fin 1)) (ix2 i k) (fun a => match a with
      | ⟨0, _⟩ => by show i.val = 0 + i.val; omega
      | ⟨1, _⟩ => by show k.val = k.val + 0; omega)

/-- Column 0 of an [r, 3] block, with the slice's offset written as the literal `![0, 0]`. -/
theorem column0_apply {r : ℕ} (x : (⟨2, ![r, 3]⟩ : Shape).Idx → α)
    (hs : (⟨2, ![r, 3]⟩ : Shape).Slices ![0, 0] ⟨2, ![r, 1]⟩)
    (hc : (⟨2, ![r, 1]⟩ : Shape).ShapeCasts ⟨1, ![r]⟩) (i : Fin r) :
    shapeCast ⟨1, ![r]⟩ (extractStridedSlice ⟨2, ![r, 1]⟩ ![0, 0] x hs) hc (ix1 i) = x (ix2 i (0 : Fin 3)) :=
  column_apply (0 : Fin 3) x hs hc i

/-- Column 1 of an [r, 3] block, with the slice's offset written as the literal `![0, 1]`. -/
theorem column1_apply {r : ℕ} (x : (⟨2, ![r, 3]⟩ : Shape).Idx → α)
    (hs : (⟨2, ![r, 3]⟩ : Shape).Slices ![0, 1] ⟨2, ![r, 1]⟩)
    (hc : (⟨2, ![r, 1]⟩ : Shape).ShapeCasts ⟨1, ![r]⟩) (i : Fin r) :
    shapeCast ⟨1, ![r]⟩ (extractStridedSlice ⟨2, ![r, 1]⟩ ![0, 1] x hs) hc (ix1 i) = x (ix2 i (1 : Fin 3)) :=
  column_apply (1 : Fin 3) x hs hc i

/-- Column 2 of an [r, 3] block, with the slice's offset written as the literal `![0, 2]`. -/
theorem column2_apply {r : ℕ} (x : (⟨2, ![r, 3]⟩ : Shape).Idx → α)
    (hs : (⟨2, ![r, 3]⟩ : Shape).Slices ![0, 2] ⟨2, ![r, 1]⟩)
    (hc : (⟨2, ![r, 1]⟩ : Shape).ShapeCasts ⟨1, ![r]⟩) (i : Fin r) :
    shapeCast ⟨1, ![r]⟩ (extractStridedSlice ⟨2, ![r, 1]⟩ ![0, 2] x hs) hc (ix1 i) = x (ix2 i (2 : Fin 3)) :=
  column_apply (2 : Fin 3) x hs hc i

/-- Nine [r, 1] columns joined along the second axis read, at `(i, j)`, column `j` at `(i, 0)`. -/
theorem concat9_apply {r : ℕ} (c0 c1 c2 c3 c4 c5 c6 c7 c8 : (⟨2, ![r, 1]⟩ : Shape).Idx → α)
    (h : Shape.Concatenates (([⟨⟨2, ![r, 1]⟩, c0⟩, ⟨⟨2, ![r, 1]⟩, c1⟩, ⟨⟨2, ![r, 1]⟩, c2⟩, ⟨⟨2, ![r, 1]⟩, c3⟩,
        ⟨⟨2, ![r, 1]⟩, c4⟩, ⟨⟨2, ![r, 1]⟩, c5⟩, ⟨⟨2, ![r, 1]⟩, c6⟩, ⟨⟨2, ![r, 1]⟩, c7⟩, ⟨⟨2, ![r, 1]⟩, c8⟩] :
        List ((s : Shape) × (s.Idx → α))).map (·.1)) ⟨2, ![r, 9]⟩ 1)
    (i : Fin r) (j : Fin 9) :
    concatenate ⟨2, ![r, 9]⟩ 1 [⟨⟨2, ![r, 1]⟩, c0⟩, ⟨⟨2, ![r, 1]⟩, c1⟩, ⟨⟨2, ![r, 1]⟩, c2⟩, ⟨⟨2, ![r, 1]⟩, c3⟩,
        ⟨⟨2, ![r, 1]⟩, c4⟩, ⟨⟨2, ![r, 1]⟩, c5⟩, ⟨⟨2, ![r, 1]⟩, c6⟩, ⟨⟨2, ![r, 1]⟩, c7⟩, ⟨⟨2, ![r, 1]⟩, c8⟩] h (ix2 i j)
      = (![c0, c1, c2, c3, c4, c5, c6, c7, c8] j) (ix2 i (0 : Fin 1)) := by
  -- piece `k` starts at position `k` on the second axis (the `k` pieces before it have extent 1 each), so
  -- entry `(i, k)` of the join is entry `(i, 0)` of piece `k`; off the axis the coordinate `i` is kept.
  match j with
  | ⟨0, _⟩ =>
    exact concatenate_apply_piece 1 _ h _ 0 (by simp) ⟨2, ![r, 1]⟩ c0 rfl rfl 0 rfl (ix2 i (0 : Fin 1))
      (fun b hb => match b with | ⟨0, _⟩ => rfl | ⟨1, _⟩ => absurd rfl hb) rfl
  | ⟨1, _⟩ =>
    exact concatenate_apply_piece 1 _ h _ 1 (by simp) ⟨2, ![r, 1]⟩ c1 rfl rfl 1 rfl (ix2 i (0 : Fin 1))
      (fun b hb => match b with | ⟨0, _⟩ => rfl | ⟨1, _⟩ => absurd rfl hb) rfl
  | ⟨2, _⟩ =>
    exact concatenate_apply_piece 1 _ h _ 2 (by simp) ⟨2, ![r, 1]⟩ c2 rfl rfl 2 rfl (ix2 i (0 : Fin 1))
      (fun b hb => match b with | ⟨0, _⟩ => rfl | ⟨1, _⟩ => absurd rfl hb) rfl
  | ⟨3, _⟩ =>
    exact concatenate_apply_piece 1 _ h _ 3 (by simp) ⟨2, ![r, 1]⟩ c3 rfl rfl 3 rfl (ix2 i (0 : Fin 1))
      (fun b hb => match b with | ⟨0, _⟩ => rfl | ⟨1, _⟩ => absurd rfl hb) rfl
  | ⟨4, _⟩ =>
    exact concatenate_apply_piece 1 _ h _ 4 (by simp) ⟨2, ![r, 1]⟩ c4 rfl rfl 4 rfl (ix2 i (0 : Fin 1))
      (fun b hb => match b with | ⟨0, _⟩ => rfl | ⟨1, _⟩ => absurd rfl hb) rfl
  | ⟨5, _⟩ =>
    exact concatenate_apply_piece 1 _ h _ 5 (by simp) ⟨2, ![r, 1]⟩ c5 rfl rfl 5 rfl (ix2 i (0 : Fin 1))
      (fun b hb => match b with | ⟨0, _⟩ => rfl | ⟨1, _⟩ => absurd rfl hb) rfl
  | ⟨6, _⟩ =>
    exact concatenate_apply_piece 1 _ h _ 6 (by simp) ⟨2, ![r, 1]⟩ c6 rfl rfl 6 rfl (ix2 i (0 : Fin 1))
      (fun b hb => match b with | ⟨0, _⟩ => rfl | ⟨1, _⟩ => absurd rfl hb) rfl
  | ⟨7, _⟩ =>
    exact concatenate_apply_piece 1 _ h _ 7 (by simp) ⟨2, ![r, 1]⟩ c7 rfl rfl 7 rfl (ix2 i (0 : Fin 1))
      (fun b hb => match b with | ⟨0, _⟩ => rfl | ⟨1, _⟩ => absurd rfl hb) rfl
  | ⟨8, _⟩ =>
    exact concatenate_apply_piece 1 _ h _ 8 (by simp) ⟨2, ![r, 1]⟩ c8 rfl rfl 8 rfl (ix2 i (0 : Fin 1))
      (fun b hb => match b with | ⟨0, _⟩ => rfl | ⟨1, _⟩ => absurd rfl hb) rfl

end Cert.RowLayout
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockK.lean ====
/-
  What the kernel body stores, as one function of what its input buffer holds, and that function read at an entry.

  The body loads the whole [4096, 3] input buffer `X`, shifts it, takes its three columns, computes the nine result
  columns entry by entry and stores their join, a [4096, 9] block. Entry `(r, j)` of that block is the `j`-th number
  of `RowSpec.row` of row `r` of `X`: it depends on row `r` of `X` and on nothing else.
-/
import proofs.«181935_j18983755448816_1_alg».proof.Proof.Gen.Kernel.Skeleton
import proofs.«181935_j18983755448816_1_alg».proof.Proof.RowSpec
import proofs.«181935_j18983755448816_1_alg».proof.Proof.RowLayout
import proofs.«181935_j18983755448816_1_alg».proof.Proof.LibColumn

noncomputable section

namespace Cert.Kernel.Hand

open Cert.Kernel Cert.Kernel.Gen
open Idealize.ShloMosaic Idealize.ShloMosaic.ValueIdx

variable {F : FTy → Type} [FloatOps F]

/-- The block the body stores when its input buffer holds `X`. -/
def outBlock (X : Vec F S4096x3 .f32) : FVec F S4096x9 .f32 :=
  k0_pay1 (k0_pay3 X) (k0_pay4 X) (k0_pay8 X) (k0_pay9 X) (k0_pay11 X) (k0_pay12 X) (k0_pay13 X) (k0_pay14 X)
    (k0_pay15 X) (k0_pay16 X) (k0_pay17 X) (k0_pay18 (F := F))

/-! ## The shifted entries of a row

Every entry of the input is shifted by `ε` before anything else is computed; the three columns of the shifted block
are what every later value is computed from. -/

/-- The shifted first entry of row `r`: `x = X (r, 0) + ε`. -/
abbrev shX (X : Vec F S4096x3 .f32) (r : Fin 4096) : F .f32 :=
  FloatOps.addf (X (ix2 r (0 : Fin 3))) Cert.RowSpec.eps
/-- The shifted second entry of row `r`: `y = X (r, 1) + ε`. -/
abbrev shY (X : Vec F S4096x3 .f32) (r : Fin 4096) : F .f32 :=
  FloatOps.addf (X (ix2 r (1 : Fin 3))) Cert.RowSpec.eps
/-- The shifted third entry of row `r`: `z = X (r, 2) + ε`. -/
abbrev shZ (X : Vec F S4096x3 .f32) (r : Fin 4096) : F .f32 :=
  FloatOps.addf (X (ix2 r (2 : Fin 3))) Cert.RowSpec.eps

/-- The shifted block at `(r, k)` is the input's entry plus `ε`: the sum of two blocks is taken entry by entry and
    the second block holds `ε` everywhere. -/
theorem pay2_apply (X : Vec F S4096x3 .f32) (r : Fin 4096) (k : Fin 3) :
    k0_pay2 X (ix2 r k) = FloatOps.addf (X (ix2 r k)) Cert.RowSpec.eps := rfl

/-- Column 0 of the shifted block at `r` is `x`. -/
theorem pay3_apply (X : Vec F S4096x3 .f32) (r : Fin 4096) : k0_pay3 X (ix1 r) = shX X r :=
  (Cert.RowLayout.column_apply (0 : Fin 3) (k0_pay2 X) slices_S4096x3_o0_0_S4096x1 shapeCasts_S4096x1_S4096 r).trans
    (pay2_apply X r 0)

/-- Column 1 of the shifted block at `r` is `y`. -/
theorem pay4_apply (X : Vec F S4096x3 .f32) (r : Fin 4096) : k0_pay4 X (ix1 r) = shY X r :=
  (Cert.RowLayout.column_apply (1 : Fin 3) (k0_pay2 X) slices_S4096x3_o0_1_S4096x1 shapeCasts_S4096x1_S4096 r).trans
    (pay2_apply X r 1)

/-- Column 2 of the shifted block at `r` is `z`. -/
theorem pay5_apply (X : Vec F S4096x3 .f32) (r : Fin 4096) : k0_pay5 X (ix1 r) = shZ X r :=
  (Cert.RowLayout.column_apply (2 : Fin 3) (k0_pay2 X) slices_S4096x3_o0_2_S4096x1 shapeCasts_S4096x1_S4096 r).trans
    (pay2_apply X r 2)

/-! ## The scalars of a row

Each vector operation acts entry by entry, so each value of the body at `r` is the scalar operation of its operands
at `r`: the squared norm, the angle, the two coefficients and the three mixed products. -/

/-- The sum of squares at `r` is `s = (x·x + y·y) + z·z`. -/
theorem pay6_apply (X : Vec F S4096x3 .f32) (r : Fin 4096) :
    k0_pay6 X (ix1 r) = Cert.RowSpec.sqn (shX X r) (shY X r) (shZ X r) := by
  have h : k0_pay6 X (ix1 r)
      = Cert.RowSpec.sqn (k0_pay3 X (ix1 r)) (k0_pay4 X (ix1 r)) (k0_pay5 X (ix1 r)) := rfl
  rw [h, pay3_apply, pay4_apply, pay5_apply]

/-- The root at `r` is `θ = √s`. -/
theorem pay7_apply (X : Vec F S4096x3 .f32) (r : Fin 4096) :
    k0_pay7 X (ix1 r) = Cert.RowSpec.theta (shX X r) (shY X r) (shZ X r) := by
  have h : k0_pay7 X (ix1 r) = FloatOps.sqrt (k0_pay6 X (ix1 r)) := rfl
  rw [h, pay6_apply]; rfl

/-- The first coefficient at `r` is `B = (1 − cos θ) / s`. -/
theorem pay8_apply (X : Vec F S4096x3 .f32) (r : Fin 4096) :
    k0_pay8 X (ix1 r) = Cert.RowSpec.coefB (shX X r) (shY X r) (shZ X r) := by
  have h : k0_pay8 X (ix1 r)
      = FloatOps.divf (FloatOps.subf Cert.RowSpec.one (FloatOps.cos (k0_pay7 X (ix1 r)))) (k0_pay6 X (ix1 r)) := rfl
  rw [h, pay7_apply, pay6_apply]; rfl

/-- The second coefficient at `r` is `C = (1 − sin θ / θ) / s`. -/
theorem pay9_apply (X : Vec F S4096x3 .f32) (r : Fin 4096) :
    k0_pay9 X (ix1 r) = Cert.RowSpec.coefC (shX X r) (shY X r) (shZ X r) := by
  have h : k0_pay9 X (ix1 r)
      = FloatOps.divf (FloatOps.subf Cert.RowSpec.one
          (FloatOps.divf (FloatOps.sin (k0_pay7 X (ix1 r))) (k0_pay7 X (ix1 r)))) (k0_pay6 X (ix1 r)) := rfl
  rw [h, pay7_apply, pay6_apply]; rfl

/-- The product of the first two columns at `r` is `x·y`. -/
theorem pay10_apply (X : Vec F S4096x3 .f32) (r : Fin 4096) :
    k0_pay10 X (ix1 r) = FloatOps.mulf (shX X r) (shY X r) := by
  have h : k0_pay10 X (ix1 r) = FloatOps.mulf (k0_pay3 X (ix1 r)) (k0_pay4 X (ix1 r)) := rfl
  rw [h, pay3_apply, pay4_apply]

/-- The product of the first and third columns at `r` is `x·z`. -/
theorem pay11_apply (X : Vec F S4096x3 .f32) (r : Fin 4096) :
    k0_pay11 X (ix1 r) = FloatOps.mulf (shX X r) (shZ X r) := by
  have h : k0_pay11 X (ix1 r) = FloatOps.mulf (k0_pay3 X (ix1 r)) (k0_pay5 X (ix1 r)) := rfl
  rw [h, pay3_apply, pay5_apply]

/-- The product of the last two columns at `r` is `y·z`. -/
theorem pay12_apply (X : Vec F S4096x3 .f32) (r : Fin 4096) :
    k0_pay12 X (ix1 r) = FloatOps.mulf (shY X r) (shZ X r) := by
  have h : k0_pay12 X (ix1 r) = FloatOps.mulf (k0_pay4 X (ix1 r)) (k0_pay5 X (ix1 r)) := rfl
  rw [h, pay4_apply, pay5_apply]

/-! ## The nine result columns at a row -/

/-- Result column 0 at `r`: the diagonal entry off `y`, `z`. -/
theorem pay13_apply (X : Vec F S4096x3 .f32) (r : Fin 4096) :
    k0_pay13 X (ix1 r)
      = Cert.RowSpec.diag (Cert.RowSpec.coefC (shX X r) (shY X r) (shZ X r)) (shY X r) (shZ X r) := by
  have h : k0_pay13 X (ix1 r)
      = Cert.RowSpec.diag (k0_pay9 X (ix1 r)) (k0_pay4 X (ix1 r)) (k0_pay5 X (ix1 r)) := rfl
  rw [h, pay9_apply, pay4_apply, pay5_apply]

/-- Result column 1 at `r`: `(0 − B)·z + C·(x·y)`. -/
theorem pay14_apply (X : Vec F S4096x3 .f32) (r : Fin 4096) :
    k0_pay14 X (ix1 r)
      = Cert.RowSpec.offNeg (Cert.RowSpec.coefB (shX X r) (shY X r) (shZ X r))
          (Cert.RowSpec.coefC (shX X r) (shY X r) (shZ X r)) (shZ X r) (shX X r) (shY X r) := by
  have h : k0_pay14 X (ix1 r)
      = FloatOps.addf (FloatOps.mulf (FloatOps.subf Cert.RowSpec.zero (k0_pay8 X (ix1 r))) (k0_pay5 X (ix1 r)))
          (FloatOps.mulf (k0_pay9 X (ix1 r)) (k0_pay10 X (ix1 r))) := rfl
  rw [h, pay8_apply, pay9_apply, pay5_apply, pay10_apply]; rfl

/-- Result column 2 at `r`: `B·y + C·(x·z)`. -/
theorem pay15_apply (X : Vec F S4096x3 .f32) (r : Fin 4096) :
    k0_pay15 X (ix1 r)
      = Cert.RowSpec.offPos (Cert.RowSpec.coefB (shX X r) (shY X r) (shZ X r))
          (Cert.RowSpec.coefC (shX X r) (shY X r) (shZ X r)) (shY X r) (shX X r) (shZ X r) := by
  have h : k0_pay15 X (ix1 r)
      = FloatOps.addf (FloatOps.mulf (k0_pay8 X (ix1 r)) (k0_pay4 X (ix1 r)))
          (FloatOps.mulf (k0_pay9 X (ix1 r)) (k0_pay11 X (ix1 r))) := rfl
  rw [h, pay8_apply, pay9_apply, pay4_apply, pay11_apply]; rfl

/-- Result column 3 at `r`: `B·z + C·(x·y)`. -/
theorem pay16_apply (X : Vec F S4096x3 .f32) (r : Fin 4096) :
    k0_pay16 X (ix1 r)
      = Cert.RowSpec.offPos (Cert.RowSpec.coefB (shX X r) (shY X r) (shZ X r))
          (Cert.RowSpec.coefC (shX X r) (shY X r) (shZ X r)) (shZ X r) (shX X r) (shY X r) := by
  have h : k0_pay16 X (ix1 r)
      = FloatOps.addf (FloatOps.mulf (k0_pay8 X (ix1 r)) (k0_pay5 X (ix1 r)))
          (FloatOps.mulf (k0_pay9 X (ix1 r)) (k0_pay10 X (ix1 r))) := rfl
  rw [h, pay8_apply, pay9_apply, pay5_apply, pay10_apply]; rfl

/-- The sum of the squares of the first and third columns at `r` is `x·x + z·z`. -/
theorem pay17_apply (X : Vec F S4096x3 .f32) (r : Fin 4096) :
    k0_pay17 X (ix1 r) = FloatOps.addf (FloatOps.mulf (shX X r) (shX X r)) (FloatOps.mulf (shZ X r) (shZ X r)) := by
  have h : k0_pay17 X (ix1 r)
      = FloatOps.addf (FloatOps.mulf (k0_pay3 X (ix1 r)) (k0_pay3 X (ix1 r)))
          (FloatOps.mulf (k0_pay5 X (ix1 r)) (k0_pay5 X (ix1 r))) := rfl
  rw [h, pay3_apply, pay5_apply]

/-- The constant vector of zeros at `r` is zero. -/
theorem pay18_apply (r : Fin 4096) : k0_pay18 (F := F) (ix1 r) = Cert.RowSpec.zero := rfl

/-! ## The stored block at an entry

The stored block is the join of nine columns; at `(r, j)` it reads the `j`-th column at `r`. -/

/-- Of nine listed values, the one at position 0. -/
theorem nth9_0 {β : Type} (c0 c1 c2 c3 c4 c5 c6 c7 c8 : β) (h : 0 < 9) :
    (![c0, c1, c2, c3, c4, c5, c6, c7, c8] : Fin 9 → β) ⟨0, h⟩ = c0 := rfl

/-- Of nine listed values, the one at position 1. -/
theorem nth9_1 {β : Type} (c0 c1 c2 c3 c4 c5 c6 c7 c8 : β) (h : 1 < 9) :
    (![c0, c1, c2, c3, c4, c5, c6, c7, c8] : Fin 9 → β) ⟨1, h⟩ = c1 := rfl

/-- Of nine listed values, the one at position 2. -/
theorem nth9_2 {β : Type} (c0 c1 c2 c3 c4 c5 c6 c7 c8 : β) (h : 2 < 9) :
    (![c0, c1, c2, c3, c4, c5, c6, c7, c8] : Fin 9 → β) ⟨2, h⟩ = c2 := rfl

/-- Of nine listed values, the one at position 3. -/
theorem nth9_3 {β : Type} (c0 c1 c2 c3 c4 c5 c6 c7 c8 : β) (h : 3 < 9) :
    (![c0, c1, c2, c3, c4, c5, c6, c7, c8] : Fin 9 → β) ⟨3, h⟩ = c3 := rfl

/-- Of nine listed values, the one at position 4. -/
theorem nth9_4 {β : Type} (c0 c1 c2 c3 c4 c5 c6 c7 c8 : β) (h : 4 < 9) :
    (![c0, c1, c2, c3, c4, c5, c6, c7, c8] : Fin 9 → β) ⟨4, h⟩ = c4 := rfl

/-- Of nine listed values, the one at position 5. -/
theorem nth9_5 {β : Type} (c0 c1 c2 c3 c4 c5 c6 c7 c8 : β) (h : 5 < 9) :
    (![c0, c1, c2, c3, c4, c5, c6, c7, c8] : Fin 9 → β) ⟨5, h⟩ = c5 := rfl

/-- Of nine listed values, the one at position 6. -/
theorem nth9_6 {β : Type} (c0 c1 c2 c3 c4 c5 c6 c7 c8 : β) (h : 6 < 9) :
    (![c0, c1, c2, c3, c4, c5, c6, c7, c8] : Fin 9 → β) ⟨6, h⟩ = c6 := rfl

/-- Of nine listed values, the one at position 7. -/
theorem nth9_7 {β : Type} (c0 c1 c2 c3 c4 c5 c6 c7 c8 : β) (h : 7 < 9) :
    (![c0, c1, c2, c3, c4, c5, c6, c7, c8] : Fin 9 → β) ⟨7, h⟩ = c7 := rfl

/-- Of nine listed values, the one at position 8. -/
theorem nth9_8 {β : Type} (c0 c1 c2 c3 c4 c5 c6 c7 c8 : β) (h : 8 < 9) :
    (![c0, c1, c2, c3, c4, c5, c6, c7, c8] : Fin 9 → β) ⟨8, h⟩ = c8 := rfl

/-- Entry `(r, j)` of the stored block is the `j`-th number of the result row of row `r` of the input buffer. -/
theorem outBlock_apply (X : Vec F S4096x3 .f32) (r : Fin 4096) (j : Fin 9) :
    outBlock X (ix2 r j)
      = Cert.RowSpec.row (X (ix2 r (0 : Fin 3))) (X (ix2 r (1 : Fin 3))) (X (ix2 r (2 : Fin 3))) j := by
  unfold outBlock k0_pay1
  refine (Cert.RowLayout.concat9_apply _ _ _ _ _ _ _ _ _ _ r j).trans ?_
  match j with
  | ⟨0, _⟩ =>
    rw [nth9_0]
    exact (Cert.LibColumn.shapeCast_a_a1_apply _ _ r 0).trans (pay13_apply X r)
  | ⟨1, _⟩ =>
    rw [nth9_1]
    exact (Cert.LibColumn.shapeCast_a_a1_apply _ _ r 0).trans (pay14_apply X r)
  | ⟨2, _⟩ =>
    rw [nth9_2]
    exact (Cert.LibColumn.shapeCast_a_a1_apply _ _ r 0).trans (pay15_apply X r)
  | ⟨3, _⟩ =>
    rw [nth9_3]
    exact (Cert.LibColumn.shapeCast_a_a1_apply _ _ r 0).trans (pay16_apply X r)
  | ⟨4, _⟩ =>
    rw [nth9_4]
    refine (Cert.LibColumn.shapeCast_a_a1_apply _ _ r 0).trans ?_
    show Cert.RowSpec.diag (k0_pay9 X (ix1 r)) (k0_pay3 X (ix1 r)) (k0_pay5 X (ix1 r)) = _
    rw [pay9_apply, pay3_apply, pay5_apply]; rfl
  | ⟨5, _⟩ =>
    rw [nth9_5]
    refine (Cert.LibColumn.shapeCast_a_a1_apply _ _ r 0).trans ?_
    show Cert.RowSpec.offNeg (k0_pay8 X (ix1 r)) (k0_pay9 X (ix1 r)) (k0_pay3 X (ix1 r)) (k0_pay4 X (ix1 r))
      (k0_pay5 X (ix1 r)) = _
    rw [pay8_apply, pay9_apply, pay3_apply, pay4_apply, pay5_apply]; rfl
  | ⟨6, _⟩ =>
    rw [nth9_6]
    refine (Cert.LibColumn.shapeCast_a_a1_apply _ _ r 0).trans ?_
    show Cert.RowSpec.offNeg (k0_pay8 X (ix1 r)) (k0_pay9 X (ix1 r)) (k0_pay4 X (ix1 r)) (k0_pay3 X (ix1 r))
      (k0_pay5 X (ix1 r)) = _
    rw [pay8_apply, pay9_apply, pay3_apply, pay4_apply, pay5_apply]; rfl
  | ⟨7, _⟩ =>
    rw [nth9_7]
    refine (Cert.LibColumn.shapeCast_a_a1_apply _ _ r 0).trans ?_
    show Cert.RowSpec.offPos (k0_pay8 X (ix1 r)) (k0_pay9 X (ix1 r)) (k0_pay3 X (ix1 r)) (k0_pay4 X (ix1 r))
      (k0_pay5 X (ix1 r)) = _
    rw [pay8_apply, pay9_apply, pay3_apply, pay4_apply, pay5_apply]; rfl
  | ⟨8, _⟩ =>
    rw [nth9_8]
    refine (Cert.LibColumn.shapeCast_a_a1_apply _ _ r 0).trans ?_
    show Cert.RowSpec.diag (k0_pay9 X (ix1 r)) (k0_pay3 X (ix1 r)) (k0_pay4 X (ix1 r)) = _
    rw [pay9_apply, pay3_apply, pay4_apply]; rfl

end Cert.Kernel.Hand

end
-- ==== Proof.BodyK.lean ====
/-
  The kernel body as a program: run on a whole input buffer holding `X` and a whole output buffer holding anything,
  it terminates without a fault, leaves the input buffer as it was and the output buffer holding `outBlock X`.
  The body is two whole-buffer loads (the second, of the output buffer, is never used), the arithmetic, and one
  whole-buffer store.
-/
import proofs.«181935_j18983755448816_1_alg».proof.Proof.Gen.Kernel.Frame
import proofs.«181935_j18983755448816_1_alg».proof.Proof.BlockK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple, on any two whole buffers. -/
theorem sound_kernel (c : Dev nD) (E : Set ℕ) (i : grid0.Coords)
    (arg1 : Memref sig .tc .vmem S4096x3 .f32) (harg1 : arg1.IsWhole)
    (arg2 : Memref sig .tc .vmem S4096x9 .f32) (harg2 : arg2.IsWhole)
    (x0 : Vec F S4096x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__getv_kernel i arg1 harg1 arg2 harg2) K := by
  simp only [cc0__getv_kernel_eq_skeleton]; unfold cc0__getv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S4096x9_S4096x9_0_0 y⟩)]
  sl_unfold_words
  rw [View.canon_unit_zero hz]
  simp only [View.readAt_eq_ld, View.ld_unit_zero (S := S4096x3) hz]
  rfl

end Cert.Kernel.Hand

end
-- ==== Proof.FrameK.lean ====
/-
  The pipeline's proof data, the body's obligation at every grid point, the run of the whole program and its frame.

  The grid has 977 points; point `t` handles rows `4096·t … 4096·t + 4095` of the arrays, of which the last point
  has only 2304 inside the arrays (4000000 = 976·4096 + 2304). The transfers are cut at the arrays' end: the fetch
  fills the input buffer's leading rows with the array's rows and leaves the other rows at contents nothing names;
  the write-back writes the output buffer's leading rows only. The body computes every row of its output block from
  the same row of its input block, so on the rows inside the array what it leaves does not depend on the unnamed
  rows: after the body the output buffer holds, on those rows, `outBlock` of the input block filled out with zeros.
-/
import proofs.«181935_j18983755448816_1_alg».proof.Proof.BodyK

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The input array's block at point `t`: its rows inside the array. -/
def inBlk (c : Dev nD) (t : Fin cfg0.N) : (win0_0.xblock (grid0.coords t)).Idx → Elt F .f32 := iblk m c 0 t

/-- The same filled out to a whole [4096, 3] block with zeros on the rows past the array's end. -/
def inFull (c : Dev nD) (t : Fin cfg0.N) : S4096x3.Idx → Elt F .f32 :=
  win0_0.fill (grid0.coords t) (fun _ => FloatOps.ofBits .f32 0x00000000#32) (inBlk m c t)

/-- The proof data of the one pipeline on core `c`: the arrays as the region finds them; after the body at point
    `t` the input buffer at its block and the output buffer at `outBlock` of it (both stated on the rows inside the
    array: the windows are loose); the invariant is the part of the core's state the body does not touch; nothing
    is owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => outBlock (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inFull m c t := by dsimp only [dats]
theorem after0_1 (c : Dev nD) (t : Fin cfg0.N) : (dats m 0 c).after 1 t = outBlock (inFull m c t) := by
  dsimp only [dats]

/-- The input buffer when the body runs at point `t`: just fetched, so the array's block on the rows inside the
    array and `d`, anything, on the others. -/
theorem before0_0 (c : Dev nD) (t : Fin cfg0.N) (d) :
    (dats m 0 c).before 0 t d = win0_0.fill (grid0.coords t) d (inBlk m c t) := by
  unfold Dat.before; rw [if_pos (fetch0_0 t)]
  unfold Dat.fetched Dat.blockOf inBlk iblk; rw [A_eq]

/-! ## Rows inside the array do not see the rows past its end -/

/-- On the rows the write-back moves, the stored block does not depend on what filled the input buffer's rows past
    the array's end: entry `(r, j)` of the stored block is computed from row `r` of the input buffer, and the two
    windows are cut at the same row. -/
theorem cut_outBlock (i : grid0.Coords) (d d' : S4096x3.Idx → Elt F .f32) (g : (win0_0.xblock i).Idx → Elt F .f32) :
    win0_1.cut i (outBlock (win0_0.fill i d g)) = win0_1.cut i (outBlock (win0_0.fill i d' g)) := by
  funext y
  show outBlock (win0_0.fill i d g) (win0_1.xinj i y) = outBlock (win0_0.fill i d' g) (win0_1.xinj i y)
  have hy0 : (y 0).val < win0_1.xsize i 0 := (y 0).isLt
  have hr : (y 0).val < 4096 := Nat.lt_of_lt_of_le hy0 (win0_1.xsize_le i 0)
  have hj : (y 1).val < 9 := Nat.lt_of_lt_of_le (y 1).isLt (win0_1.xsize_le i 1)
  have e : win0_1.xinj i y = ix2 (⟨(y 0).val, hr⟩ : Fin 4096) (⟨(y 1).val, hj⟩ : Fin 9) :=
    funext fun a => Fin.ext (by match a with | ⟨0, _⟩ => rfl | ⟨1, _⟩ => rfl)
  rw [e, outBlock_apply, outBlock_apply]
  have hm : ∀ k : Fin 3, win0_0.moved i (ix2 (⟨(y 0).val, hr⟩ : Fin 4096) k) = true := fun k =>
    (win0_0.moved_iff i _).mpr fun a => by
      match a with
      | ⟨0, _⟩ => exact hy0
      | ⟨1, _⟩ => exact k.isLt
  have hf : ∀ (dd : S4096x3.Idx → Elt F .f32) (k : Fin 3),
      win0_0.fill i dd g (ix2 (⟨(y 0).val, hr⟩ : Fin 4096) k)
        = g fun a => ⟨(ix2 (⟨(y 0).val, hr⟩ : Fin 4096) k a).val, (win0_0.moved_iff i _).mp (hm k) a⟩ := fun dd k => by
    unfold Window.fill; rw [dif_pos (hm k)]
  rw [hf d 0, hf d 1, hf d 2, hf d' 0, hf d' 1, hf d' 2]

/-! ## The body's obligation -/

/-- At every point the body, called on the windows' current buffers, takes the input buffer just fetched and the
    output buffer at anything to the input buffer unchanged and the output buffer at the stored block; on the rows
    inside the array these are the proof data's `after`. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  iapply (sound_kernel c Set.univ (grid0.coords t) _ _ _ _ (win0_0.fill (grid0.coords t) d0 (inBlk m c t)) _)
  isplitl [H0]; · iexact H0
  isplitl [H1]; · iexists _; iexact H1
  iintro ⟨H0, H1⟩
  isplitl [HΦ]; · iexact HΦ
  isplitl [Ho]; · iexact Ho
  isplitl [H0]
  · iexists d0
    rw [after0_0]; unfold inFull; rw [win0_0.cut_fill]
    iexact H0
  · iexists outBlock (win0_0.fill (grid0.coords t) d0 (inBlk m c t))
    rw [after0_1]; unfold inFull
    have e := win0_1.fill_congr_cut (grid0.coords t)
      (cut_outBlock (grid0.coords t) d0 (fun _ => FloatOps.ofBits .f32 0x00000000#32) (inBlk m c t))
    erw [e]
    iexact H1

/-! ## The run and the frame -/

set_option backward.isDefEq.respectTransparency.types false in
/-- Every weakly fair execution of the program terminates without a fault; at the end the two arrays of the
    pipeline hold what the write-backs computed from the proof data, and the result of the reshape after the region
    holds the reshape of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.BlockI.lean ====
/-
  What the kernel body stores, as one function of what its input buffer holds, and that function read at an entry.

  The body loads the whole [4096, 3] input buffer `X`, shifts it, takes its three columns, computes the nine result
  columns entry by entry and stores their join, a [4096, 9] block. Entry `(r, j)` of that block is the `j`-th number
  of `RowSpec.row` of row `r` of `X`: it depends on row `r` of `X` and on nothing else.
-/
import proofs.«181935_j18983755448816_1_alg».proof.Proof.Gen.KernelIdeal.Skeleton
import proofs.«181935_j18983755448816_1_alg».proof.Proof.RowSpec
import proofs.«181935_j18983755448816_1_alg».proof.Proof.RowLayout
import proofs.«181935_j18983755448816_1_alg».proof.Proof.LibColumn

noncomputable section

namespace Cert.KernelIdeal.Hand

open Cert.KernelIdeal Cert.KernelIdeal.Gen
open Idealize.ShloMosaic Idealize.ShloMosaic.ValueIdx

variable {F : FTy → Type} [FloatOps F]

/-- The block the body stores when its input buffer holds `X`. -/
def outBlock (X : Vec F S4096x3 .f32) : FVec F S4096x9 .f32 :=
  k0_pay1 (k0_pay3 X) (k0_pay4 X) (k0_pay8 X) (k0_pay9 X) (k0_pay11 X) (k0_pay12 X) (k0_pay13 X) (k0_pay14 X)
    (k0_pay15 X) (k0_pay16 X) (k0_pay17 X) (k0_pay18 (F := F))

/-! ## The shifted entries of a row

Every entry of the input is shifted by `ε` before anything else is computed; the three columns of the shifted block
are what every later value is computed from. -/

/-- The shifted first entry of row `r`: `x = X (r, 0) + ε`. -/
abbrev shX (X : Vec F S4096x3 .f32) (r : Fin 4096) : F .f32 :=
  FloatOps.addf (X (ix2 r (0 : Fin 3))) Cert.RowSpec.eps
/-- The shifted second entry of row `r`: `y = X (r, 1) + ε`. -/
abbrev shY (X : Vec F S4096x3 .f32) (r : Fin 4096) : F .f32 :=
  FloatOps.addf (X (ix2 r (1 : Fin 3))) Cert.RowSpec.eps
/-- The shifted third entry of row `r`: `z = X (r, 2) + ε`. -/
abbrev shZ (X : Vec F S4096x3 .f32) (r : Fin 4096) : F .f32 :=
  FloatOps.addf (X (ix2 r (2 : Fin 3))) Cert.RowSpec.eps

/-- The shifted block at `(r, k)` is the input's entry plus `ε`: the sum of two blocks is taken entry by entry and
    the second block holds `ε` everywhere. -/
theorem pay2_apply (X : Vec F S4096x3 .f32) (r : Fin 4096) (k : Fin 3) :
    k0_pay2 X (ix2 r k) = FloatOps.addf (X (ix2 r k)) Cert.RowSpec.eps := rfl

/-- Column 0 of the shifted block at `r` is `x`. -/
theorem pay3_apply (X : Vec F S4096x3 .f32) (r : Fin 4096) : k0_pay3 X (ix1 r) = shX X r :=
  (Cert.RowLayout.column_apply (0 : Fin 3) (k0_pay2 X) slices_S4096x3_o0_0_S4096x1 shapeCasts_S4096x1_S4096 r).trans
    (pay2_apply X r 0)

/-- Column 1 of the shifted block at `r` is `y`. -/
theorem pay4_apply (X : Vec F S4096x3 .f32) (r : Fin 4096) : k0_pay4 X (ix1 r) = shY X r :=
  (Cert.RowLayout.column_apply (1 : Fin 3) (k0_pay2 X) slices_S4096x3_o0_1_S4096x1 shapeCasts_S4096x1_S4096 r).trans
    (pay2_apply X r 1)

/-- Column 2 of the shifted block at `r` is `z`. -/
theorem pay5_apply (X : Vec F S4096x3 .f32) (r : Fin 4096) : k0_pay5 X (ix1 r) = shZ X r :=
  (Cert.RowLayout.column_apply (2 : Fin 3) (k0_pay2 X) slices_S4096x3_o0_2_S4096x1 shapeCasts_S4096x1_S4096 r).trans
    (pay2_apply X r 2)

/-! ## The scalars of a row

Each vector operation acts entry by entry, so each value of the body at `r` is the scalar operation of its operands
at `r`: the squared norm, the angle, the two coefficients and the three mixed products. -/

/-- The sum of squares at `r` is `s = (x·x + y·y) + z·z`. -/
theorem pay6_apply (X : Vec F S4096x3 .f32) (r : Fin 4096) :
    k0_pay6 X (ix1 r) = Cert.RowSpec.sqn (shX X r) (shY X r) (shZ X r) := by
  have h : k0_pay6 X (ix1 r)
      = Cert.RowSpec.sqn (k0_pay3 X (ix1 r)) (k0_pay4 X (ix1 r)) (k0_pay5 X (ix1 r)) := rfl
  rw [h, pay3_apply, pay4_apply, pay5_apply]

/-- The root at `r` is `θ = √s`. -/
theorem pay7_apply (X : Vec F S4096x3 .f32) (r : Fin 4096) :
    k0_pay7 X (ix1 r) = Cert.RowSpec.theta (shX X r) (shY X r) (shZ X r) := by
  have h : k0_pay7 X (ix1 r) = FloatOps.sqrt (k0_pay6 X (ix1 r)) := rfl
  rw [h, pay6_apply]; rfl

/-- The first coefficient at `r` is `B = (1 − cos θ) / s`. -/
theorem pay8_apply (X : Vec F S4096x3 .f32) (r : Fin 4096) :
    k0_pay8 X (ix1 r) = Cert.RowSpec.coefB (shX X r) (shY X r) (shZ X r) := by
  have h : k0_pay8 X (ix1 r)
      = FloatOps.divf (FloatOps.subf Cert.RowSpec.one (FloatOps.cos (k0_pay7 X (ix1 r)))) (k0_pay6 X (ix1 r)) := rfl
  rw [h, pay7_apply, pay6_apply]; rfl

/-- The second coefficient at `r` is `C = (1 − sin θ / θ) / s`. -/
theorem pay9_apply (X : Vec F S4096x3 .f32) (r : Fin 4096) :
    k0_pay9 X (ix1 r) = Cert.RowSpec.coefC (shX X r) (shY X r) (shZ X r) := by
  have h : k0_pay9 X (ix1 r)
      = FloatOps.divf (FloatOps.subf Cert.RowSpec.one
          (FloatOps.divf (FloatOps.sin (k0_pay7 X (ix1 r))) (k0_pay7 X (ix1 r)))) (k0_pay6 X (ix1 r)) := rfl
  rw [h, pay7_apply, pay6_apply]; rfl

/-- The product of the first two columns at `r` is `x·y`. -/
theorem pay10_apply (X : Vec F S4096x3 .f32) (r : Fin 4096) :
    k0_pay10 X (ix1 r) = FloatOps.mulf (shX X r) (shY X r) := by
  have h : k0_pay10 X (ix1 r) = FloatOps.mulf (k0_pay3 X (ix1 r)) (k0_pay4 X (ix1 r)) := rfl
  rw [h, pay3_apply, pay4_apply]

/-- The product of the first and third columns at `r` is `x·z`. -/
theorem pay11_apply (X : Vec F S4096x3 .f32) (r : Fin 4096) :
    k0_pay11 X (ix1 r) = FloatOps.mulf (shX X r) (shZ X r) := by
  have h : k0_pay11 X (ix1 r) = FloatOps.mulf (k0_pay3 X (ix1 r)) (k0_pay5 X (ix1 r)) := rfl
  rw [h, pay3_apply, pay5_apply]

/-- The product of the last two columns at `r` is `y·z`. -/
theorem pay12_apply (X : Vec F S4096x3 .f32) (r : Fin 4096) :
    k0_pay12 X (ix1 r) = FloatOps.mulf (shY X r) (shZ X r) := by
  have h : k0_pay12 X (ix1 r) = FloatOps.mulf (k0_pay4 X (ix1 r)) (k0_pay5 X (ix1 r)) := rfl
  rw [h, pay4_apply, pay5_apply]

/-! ## The nine result columns at a row -/

/-- Result column 0 at `r`: the diagonal entry off `y`, `z`. -/
theorem pay13_apply (X : Vec F S4096x3 .f32) (r : Fin 4096) :
    k0_pay13 X (ix1 r)
      = Cert.RowSpec.diag (Cert.RowSpec.coefC (shX X r) (shY X r) (shZ X r)) (shY X r) (shZ X r) := by
  have h : k0_pay13 X (ix1 r)
      = Cert.RowSpec.diag (k0_pay9 X (ix1 r)) (k0_pay4 X (ix1 r)) (k0_pay5 X (ix1 r)) := rfl
  rw [h, pay9_apply, pay4_apply, pay5_apply]

/-- Result column 1 at `r`: `(0 − B)·z + C·(x·y)`. -/
theorem pay14_apply (X : Vec F S4096x3 .f32) (r : Fin 4096) :
    k0_pay14 X (ix1 r)
      = Cert.RowSpec.offNeg (Cert.RowSpec.coefB (shX X r) (shY X r) (shZ X r))
          (Cert.RowSpec.coefC (shX X r) (shY X r) (shZ X r)) (shZ X r) (shX X r) (shY X r) := by
  have h : k0_pay14 X (ix1 r)
      = FloatOps.addf (FloatOps.mulf (FloatOps.subf Cert.RowSpec.zero (k0_pay8 X (ix1 r))) (k0_pay5 X (ix1 r)))
          (FloatOps.mulf (k0_pay9 X (ix1 r)) (k0_pay10 X (ix1 r))) := rfl
  rw [h, pay8_apply, pay9_apply, pay5_apply, pay10_apply]; rfl

/-- Result column 2 at `r`: `B·y + C·(x·z)`. -/
theorem pay15_apply (X : Vec F S4096x3 .f32) (r : Fin 4096) :
    k0_pay15 X (ix1 r)
      = Cert.RowSpec.offPos (Cert.RowSpec.coefB (shX X r) (shY X r) (shZ X r))
          (Cert.RowSpec.coefC (shX X r) (shY X r) (shZ X r)) (shY X r) (shX X r) (shZ X r) := by
  have h : k0_pay15 X (ix1 r)
      = FloatOps.addf (FloatOps.mulf (k0_pay8 X (ix1 r)) (k0_pay4 X (ix1 r)))
          (FloatOps.mulf (k0_pay9 X (ix1 r)) (k0_pay11 X (ix1 r))) := rfl
  rw [h, pay8_apply, pay9_apply, pay4_apply, pay11_apply]; rfl

/-- Result column 3 at `r`: `B·z + C·(x·y)`. -/
theorem pay16_apply (X : Vec F S4096x3 .f32) (r : Fin 4096) :
    k0_pay16 X (ix1 r)
      = Cert.RowSpec.offPos (Cert.RowSpec.coefB (shX X r) (shY X r) (shZ X r))
          (Cert.RowSpec.coefC (shX X r) (shY X r) (shZ X r)) (shZ X r) (shX X r) (shY X r) := by
  have h : k0_pay16 X (ix1 r)
      = FloatOps.addf (FloatOps.mulf (k0_pay8 X (ix1 r)) (k0_pay5 X (ix1 r)))
          (FloatOps.mulf (k0_pay9 X (ix1 r)) (k0_pay10 X (ix1 r))) := rfl
  rw [h, pay8_apply, pay9_apply, pay5_apply, pay10_apply]; rfl

/-- The sum of the squares of the first and third columns at `r` is `x·x + z·z`. -/
theorem pay17_apply (X : Vec F S4096x3 .f32) (r : Fin 4096) :
    k0_pay17 X (ix1 r) = FloatOps.addf (FloatOps.mulf (shX X r) (shX X r)) (FloatOps.mulf (shZ X r) (shZ X r)) := by
  have h : k0_pay17 X (ix1 r)
      = FloatOps.addf (FloatOps.mulf (k0_pay3 X (ix1 r)) (k0_pay3 X (ix1 r)))
          (FloatOps.mulf (k0_pay5 X (ix1 r)) (k0_pay5 X (ix1 r))) := rfl
  rw [h, pay3_apply, pay5_apply]

/-- The constant vector of zeros at `r` is zero. -/
theorem pay18_apply (r : Fin 4096) : k0_pay18 (F := F) (ix1 r) = Cert.RowSpec.zero := rfl

/-! ## The stored block at an entry

The stored block is the join of nine columns; at `(r, j)` it reads the `j`-th column at `r`. -/

/-- Of nine listed values, the one at position 0. -/
theorem nth9_0 {β : Type} (c0 c1 c2 c3 c4 c5 c6 c7 c8 : β) (h : 0 < 9) :
    (![c0, c1, c2, c3, c4, c5, c6, c7, c8] : Fin 9 → β) ⟨0, h⟩ = c0 := rfl

/-- Of nine listed values, the one at position 1. -/
theorem nth9_1 {β : Type} (c0 c1 c2 c3 c4 c5 c6 c7 c8 : β) (h : 1 < 9) :
    (![c0, c1, c2, c3, c4, c5, c6, c7, c8] : Fin 9 → β) ⟨1, h⟩ = c1 := rfl

/-- Of nine listed values, the one at position 2. -/
theorem nth9_2 {β : Type} (c0 c1 c2 c3 c4 c5 c6 c7 c8 : β) (h : 2 < 9) :
    (![c0, c1, c2, c3, c4, c5, c6, c7, c8] : Fin 9 → β) ⟨2, h⟩ = c2 := rfl

/-- Of nine listed values, the one at position 3. -/
theorem nth9_3 {β : Type} (c0 c1 c2 c3 c4 c5 c6 c7 c8 : β) (h : 3 < 9) :
    (![c0, c1, c2, c3, c4, c5, c6, c7, c8] : Fin 9 → β) ⟨3, h⟩ = c3 := rfl

/-- Of nine listed values, the one at position 4. -/
theorem nth9_4 {β : Type} (c0 c1 c2 c3 c4 c5 c6 c7 c8 : β) (h : 4 < 9) :
    (![c0, c1, c2, c3, c4, c5, c6, c7, c8] : Fin 9 → β) ⟨4, h⟩ = c4 := rfl

/-- Of nine listed values, the one at position 5. -/
theorem nth9_5 {β : Type} (c0 c1 c2 c3 c4 c5 c6 c7 c8 : β) (h : 5 < 9) :
    (![c0, c1, c2, c3, c4, c5, c6, c7, c8] : Fin 9 → β) ⟨5, h⟩ = c5 := rfl

/-- Of nine listed values, the one at position 6. -/
theorem nth9_6 {β : Type} (c0 c1 c2 c3 c4 c5 c6 c7 c8 : β) (h : 6 < 9) :
    (![c0, c1, c2, c3, c4, c5, c6, c7, c8] : Fin 9 → β) ⟨6, h⟩ = c6 := rfl

/-- Of nine listed values, the one at position 7. -/
theorem nth9_7 {β : Type} (c0 c1 c2 c3 c4 c5 c6 c7 c8 : β) (h : 7 < 9) :
    (![c0, c1, c2, c3, c4, c5, c6, c7, c8] : Fin 9 → β) ⟨7, h⟩ = c7 := rfl

/-- Of nine listed values, the one at position 8. -/
theorem nth9_8 {β : Type} (c0 c1 c2 c3 c4 c5 c6 c7 c8 : β) (h : 8 < 9) :
    (![c0, c1, c2, c3, c4, c5, c6, c7, c8] : Fin 9 → β) ⟨8, h⟩ = c8 := rfl

/-- Entry `(r, j)` of the stored block is the `j`-th number of the result row of row `r` of the input buffer. -/
theorem outBlock_apply (X : Vec F S4096x3 .f32) (r : Fin 4096) (j : Fin 9) :
    outBlock X (ix2 r j)
      = Cert.RowSpec.row (X (ix2 r (0 : Fin 3))) (X (ix2 r (1 : Fin 3))) (X (ix2 r (2 : Fin 3))) j := by
  unfold outBlock k0_pay1
  refine (Cert.RowLayout.concat9_apply _ _ _ _ _ _ _ _ _ _ r j).trans ?_
  match j with
  | ⟨0, _⟩ =>
    rw [nth9_0]
    exact (Cert.LibColumn.shapeCast_a_a1_apply _ _ r 0).trans (pay13_apply X r)
  | ⟨1, _⟩ =>
    rw [nth9_1]
    exact (Cert.LibColumn.shapeCast_a_a1_apply _ _ r 0).trans (pay14_apply X r)
  | ⟨2, _⟩ =>
    rw [nth9_2]
    exact (Cert.LibColumn.shapeCast_a_a1_apply _ _ r 0).trans (pay15_apply X r)
  | ⟨3, _⟩ =>
    rw [nth9_3]
    exact (Cert.LibColumn.shapeCast_a_a1_apply _ _ r 0).trans (pay16_apply X r)
  | ⟨4, _⟩ =>
    rw [nth9_4]
    refine (Cert.LibColumn.shapeCast_a_a1_apply _ _ r 0).trans ?_
    show Cert.RowSpec.diag (k0_pay9 X (ix1 r)) (k0_pay3 X (ix1 r)) (k0_pay5 X (ix1 r)) = _
    rw [pay9_apply, pay3_apply, pay5_apply]; rfl
  | ⟨5, _⟩ =>
    rw [nth9_5]
    refine (Cert.LibColumn.shapeCast_a_a1_apply _ _ r 0).trans ?_
    show Cert.RowSpec.offNeg (k0_pay8 X (ix1 r)) (k0_pay9 X (ix1 r)) (k0_pay3 X (ix1 r)) (k0_pay4 X (ix1 r))
      (k0_pay5 X (ix1 r)) = _
    rw [pay8_apply, pay9_apply, pay3_apply, pay4_apply, pay5_apply]; rfl
  | ⟨6, _⟩ =>
    rw [nth9_6]
    refine (Cert.LibColumn.shapeCast_a_a1_apply _ _ r 0).trans ?_
    show Cert.RowSpec.offNeg (k0_pay8 X (ix1 r)) (k0_pay9 X (ix1 r)) (k0_pay4 X (ix1 r)) (k0_pay3 X (ix1 r))
      (k0_pay5 X (ix1 r)) = _
    rw [pay8_apply, pay9_apply, pay3_apply, pay4_apply, pay5_apply]; rfl
  | ⟨7, _⟩ =>
    rw [nth9_7]
    refine (Cert.LibColumn.shapeCast_a_a1_apply _ _ r 0).trans ?_
    show Cert.RowSpec.offPos (k0_pay8 X (ix1 r)) (k0_pay9 X (ix1 r)) (k0_pay3 X (ix1 r)) (k0_pay4 X (ix1 r))
      (k0_pay5 X (ix1 r)) = _
    rw [pay8_apply, pay9_apply, pay3_apply, pay4_apply, pay5_apply]; rfl
  | ⟨8, _⟩ =>
    rw [nth9_8]
    refine (Cert.LibColumn.shapeCast_a_a1_apply _ _ r 0).trans ?_
    show Cert.RowSpec.diag (k0_pay9 X (ix1 r)) (k0_pay3 X (ix1 r)) (k0_pay4 X (ix1 r)) = _
    rw [pay9_apply, pay3_apply, pay4_apply]; rfl

end Cert.KernelIdeal.Hand

end
-- ==== Proof.BodyI.lean ====
/-
  The kernel body as a program: run on a whole input buffer holding `X` and a whole output buffer holding anything,
  it terminates without a fault, leaves the input buffer as it was and the output buffer holding `outBlock X`.
  The body is two whole-buffer loads (the second, of the output buffer, is never used), the arithmetic, and one
  whole-buffer store.
-/
import proofs.«181935_j18983755448816_1_alg».proof.Proof.Gen.KernelIdeal.Frame
import proofs.«181935_j18983755448816_1_alg».proof.Proof.BlockI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple, on any two whole buffers. -/
theorem sound_kernel (c : Dev nD) (E : Set ℕ) (i : grid0.Coords)
    (arg1 : Memref sig .tc .vmem S4096x3 .f32) (harg1 : arg1.IsWhole)
    (arg2 : Memref sig .tc .vmem S4096x9 .f32) (harg2 : arg2.IsWhole)
    (x0 : Vec F S4096x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__getv_kernel i arg1 harg1 arg2 harg2) K := by
  simp only [cc0__getv_kernel_eq_skeleton]; unfold cc0__getv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S4096x9_S4096x9_0_0 y⟩)]
  sl_unfold_words
  rw [View.canon_unit_zero hz]
  simp only [View.readAt_eq_ld, View.ld_unit_zero (S := S4096x3) hz]
  rfl

end Cert.KernelIdeal.Hand

end
-- ==== Proof.FrameI.lean ====
/-
  The pipeline's proof data, the body's obligation at every grid point, the run of the whole program and its frame.

  The grid has 977 points; point `t` handles rows `4096·t … 4096·t + 4095` of the arrays, of which the last point
  has only 2304 inside the arrays (4000000 = 976·4096 + 2304). The transfers are cut at the arrays' end: the fetch
  fills the input buffer's leading rows with the array's rows and leaves the other rows at contents nothing names;
  the write-back writes the output buffer's leading rows only. The body computes every row of its output block from
  the same row of its input block, so on the rows inside the array what it leaves does not depend on the unnamed
  rows: after the body the output buffer holds, on those rows, `outBlock` of the input block filled out with zeros.
-/
import proofs.«181935_j18983755448816_1_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The input array's block at point `t`: its rows inside the array. -/
def inBlk (c : Dev nD) (t : Fin cfg0.N) : (win0_0.xblock (grid0.coords t)).Idx → Elt F .f32 := iblk m c 0 t

/-- The same filled out to a whole [4096, 3] block with zeros on the rows past the array's end. -/
def inFull (c : Dev nD) (t : Fin cfg0.N) : S4096x3.Idx → Elt F .f32 :=
  win0_0.fill (grid0.coords t) (fun _ => FloatOps.ofBits .f32 0x00000000#32) (inBlk m c t)

/-- The proof data of the one pipeline on core `c`: the arrays as the region finds them; after the body at point
    `t` the input buffer at its block and the output buffer at `outBlock` of it (both stated on the rows inside the
    array: the windows are loose); the invariant is the part of the core's state the body does not touch; nothing
    is owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => outBlock (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inFull m c t := by dsimp only [dats]
theorem after0_1 (c : Dev nD) (t : Fin cfg0.N) : (dats m 0 c).after 1 t = outBlock (inFull m c t) := by
  dsimp only [dats]

/-- The input buffer when the body runs at point `t`: just fetched, so the array's block on the rows inside the
    array and `d`, anything, on the others. -/
theorem before0_0 (c : Dev nD) (t : Fin cfg0.N) (d) :
    (dats m 0 c).before 0 t d = win0_0.fill (grid0.coords t) d (inBlk m c t) := by
  unfold Dat.before; rw [if_pos (fetch0_0 t)]
  unfold Dat.fetched Dat.blockOf inBlk iblk; rw [A_eq]

/-! ## Rows inside the array do not see the rows past its end -/

/-- On the rows the write-back moves, the stored block does not depend on what filled the input buffer's rows past
    the array's end: entry `(r, j)` of the stored block is computed from row `r` of the input buffer, and the two
    windows are cut at the same row. -/
theorem cut_outBlock (i : grid0.Coords) (d d' : S4096x3.Idx → Elt F .f32) (g : (win0_0.xblock i).Idx → Elt F .f32) :
    win0_1.cut i (outBlock (win0_0.fill i d g)) = win0_1.cut i (outBlock (win0_0.fill i d' g)) := by
  funext y
  show outBlock (win0_0.fill i d g) (win0_1.xinj i y) = outBlock (win0_0.fill i d' g) (win0_1.xinj i y)
  have hy0 : (y 0).val < win0_1.xsize i 0 := (y 0).isLt
  have hr : (y 0).val < 4096 := Nat.lt_of_lt_of_le hy0 (win0_1.xsize_le i 0)
  have hj : (y 1).val < 9 := Nat.lt_of_lt_of_le (y 1).isLt (win0_1.xsize_le i 1)
  have e : win0_1.xinj i y = ix2 (⟨(y 0).val, hr⟩ : Fin 4096) (⟨(y 1).val, hj⟩ : Fin 9) :=
    funext fun a => Fin.ext (by match a with | ⟨0, _⟩ => rfl | ⟨1, _⟩ => rfl)
  rw [e, outBlock_apply, outBlock_apply]
  have hm : ∀ k : Fin 3, win0_0.moved i (ix2 (⟨(y 0).val, hr⟩ : Fin 4096) k) = true := fun k =>
    (win0_0.moved_iff i _).mpr fun a => by
      match a with
      | ⟨0, _⟩ => exact hy0
      | ⟨1, _⟩ => exact k.isLt
  have hf : ∀ (dd : S4096x3.Idx → Elt F .f32) (k : Fin 3),
      win0_0.fill i dd g (ix2 (⟨(y 0).val, hr⟩ : Fin 4096) k)
        = g fun a => ⟨(ix2 (⟨(y 0).val, hr⟩ : Fin 4096) k a).val, (win0_0.moved_iff i _).mp (hm k) a⟩ := fun dd k => by
    unfold Window.fill; rw [dif_pos (hm k)]
  rw [hf d 0, hf d 1, hf d 2, hf d' 0, hf d' 1, hf d' 2]

/-! ## The body's obligation -/

/-- At every point the body, called on the windows' current buffers, takes the input buffer just fetched and the
    output buffer at anything to the input buffer unchanged and the output buffer at the stored block; on the rows
    inside the array these are the proof data's `after`. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  iapply (sound_kernel c Set.univ (grid0.coords t) _ _ _ _ (win0_0.fill (grid0.coords t) d0 (inBlk m c t)) _)
  isplitl [H0]; · iexact H0
  isplitl [H1]; · iexists _; iexact H1
  iintro ⟨H0, H1⟩
  isplitl [HΦ]; · iexact HΦ
  isplitl [Ho]; · iexact Ho
  isplitl [H0]
  · iexists d0
    rw [after0_0]; unfold inFull; rw [win0_0.cut_fill]
    iexact H0
  · iexists outBlock (win0_0.fill (grid0.coords t) d0 (inBlk m c t))
    rw [after0_1]; unfold inFull
    have e := win0_1.fill_congr_cut (grid0.coords t)
      (cut_outBlock (grid0.coords t) d0 (fun _ => FloatOps.ofBits .f32 0x00000000#32) (inBlk m c t))
    erw [e]
    iexact H1

/-! ## The run and the frame -/

set_option backward.isDefEq.respectTransparency.types false in
/-- Every weakly fair execution of the program terminates without a fault; at the end the two arrays of the
    pipeline hold what the write-backs computed from the proof data, and the result of the reshape after the region
    holds the reshape of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.ArraySpec.lean ====
/-
  The result as whole arrays. From an input array `x` of shape [4000000, 3], row `n` of the result is
  `RowSpec.row (x n 0) (x n 1) (x n 2)`: as a [4000000, 9] array its entry `(n, j)` is the row's `j`-th number, and
  as a [4000000, 3, 3] array its entry `(n, a, b)` is the row's number `3·a + b` — the two arrays hold the same
  numbers in the same row-major order, so one is the reshape of the other.
-/
import proofs.«181935_j18983755448816_1_alg».proof.Proof.RowSpec
import Idealize.ShloMosaic.Lib.ValueIdx
import Idealize.ShloMosaic.Lib.Pipeline.Value

noncomputable section

namespace Cert.ArraySpec

open Idealize.ShloMosaic Idealize.ShloMosaic.ValueIdx

abbrev A3 : Shape := ⟨2, ![4000000, 3]⟩
abbrev A9 : Shape := ⟨2, ![4000000, 9]⟩
abbrev A33 : Shape := ⟨3, ![4000000, 3, 3]⟩

variable {F : FTy → Type} [FloatOps F]

/-- The `j`-th number of result row `n`. -/
def rowAt (x : A3.Idx → F .f32) (n : Fin 4000000) (j : Fin 9) : F .f32 :=
  Cert.RowSpec.row (x (ix2 n (0 : Fin 3))) (x (ix2 n (1 : Fin 3))) (x (ix2 n (2 : Fin 3))) j

/-- Position `3·a + b` of entry `(a, b)` of a 3×3 matrix in its row-major order. -/
def flat (a b : Fin 3) : Fin 9 := ⟨3 * a.val + b.val, by have := a.isLt; have := b.isLt; omega⟩

/-- The result as a [4000000, 9] array. -/
def out9 (x : A3.Idx → F .f32) : A9.Idx → F .f32 :=
  fun i => rowAt x ⟨(i 0).val, (i 0).isLt⟩ ⟨(i 1).val, (i 1).isLt⟩

/-- The result as a [4000000, 3, 3] array. -/
def out33 (x : A3.Idx → F .f32) : A33.Idx → F .f32 :=
  fun i => rowAt x ⟨(i 0).val, (i 0).isLt⟩ (flat ⟨(i 1).val, (i 1).isLt⟩ ⟨(i 2).val, (i 2).isLt⟩)

theorem out9_apply (x : A3.Idx → F .f32) (n : Fin 4000000) (j : Fin 9) : out9 x (ix2 n j) = rowAt x n j := rfl

theorem out33_apply (x : A3.Idx → F .f32) (n : Fin 4000000) (a b : Fin 3) :
    out33 x (ix3 n a b) = rowAt x n (flat a b) := rfl

/-- Reshaping the [4000000, 9] result to [4000000, 3, 3] gives the 3×3 form: entry `(n, a, b)` sits at row-major
    position `9·n + 3·a + b`, which in the [4000000, 9] array is entry `(n, 3·a + b)`. -/
theorem shapeCast_out9 (x : A3.Idx → F .f32) (h : A9.ShapeCasts A33) : shapeCast A33 (out9 x) h = out33 x := by
  funext i
  obtain ⟨n, a, b, rfl⟩ : ∃ (n : Fin 4000000) (a b : Fin 3), i = ix3 n a b := ⟨i 0, i 1, i 2, eq_ix3 i⟩
  refine (shapeCast_apply (out9 x) h (ix3 n a b) (ix2 n (flat a b)) ?_).trans ?_
  · rw [Shape.rowMajor_val_two, Shape.rowMajor_val_three]
    show n.val * 9 + (3 * a.val + b.val) = (n.val * 3 + a.val) * 3 + b.val
    omega
  · rfl

end Cert.ArraySpec

end
-- ==== Proof.ValueI.lean ====
/-
  What the idealized kernel's program computes, as one function of its argument.

  After the run the [4000000, 9] array holds `out9` of the argument: the write-back at point `t` writes the rows of
  the stored block that lie inside the array, rows `4096·t …`, and entry `(r, j)` of the stored block is the `j`-th
  number of the result row of row `r` of the input block, which is row `4096·t + r` of the argument; the 977 cut
  blocks cover the array (row `n` lies in block `n / 4096`). The reshape after the region then leaves the
  [4000000, 3, 3] result at `out33` of the argument.
-/
import proofs.«181935_j18983755448816_1_alg».proof.Proof.FrameI
import proofs.«181935_j18983755448816_1_alg».proof.Proof.ArraySpec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps and the cuts -/

/-- The printed index maps and the cuts, decided over the grid: both windows' block index at point `t` is `(t, 0)`,
    and the transfers at point `t` move the first `min 4096 (4000000 - 4096·t)` rows of the block, on every column. -/
theorem idx0 : ∀ t : Fin cfg0.N, win0_1.index t 0 = t.val ∧ win0_1.index t 1 = 0 ∧ win0_0.index t 0 = t.val ∧ win0_0.index t 1 = 0
    ∧ win0_1.xsize (grid0.coords t) 0 = min 4096 (4000000 - 4096 * t.val) ∧ win0_1.xsize (grid0.coords t) 1 = 9
    ∧ win0_0.xsize (grid0.coords t) 0 = min 4096 (4000000 - 4096 * t.val) ∧ win0_0.xsize (grid0.coords t) 1 = 3 :=
  (by decide +kernel : ∀ t : Fin grid0.N, _)

/-! ## What a point writes back -/

/-- Row `r` of the input block at point `t`, when it lies inside the array, is row `4096·t + r` of the argument. -/
theorem inFull_apply (c : Dev nD) (t : Fin cfg0.N) (r : Fin 4096) (k : Fin 3) (hn : 4096 * t.val + r.val < 4000000) :
    inFull m c t (ix2 r k)
      = m ((c.tc : Thread nD τ).loc main_arg0) (ix2 (⟨4096 * t.val + r.val, hn⟩ : Fin 4000000) k) := by
  obtain ⟨e10, e11, e00, e01, x10, x11, x00, x01⟩ := idx0 t
  have hm : win0_0.moved (grid0.coords t) (ix2 r k) = true :=
    (win0_0.moved_iff _ _).mpr fun a => by
      match a with
      | ⟨0, _⟩ => show r.val < win0_0.xsize (grid0.coords t) 0; rw [x00]; have := r.isLt; omega
      | ⟨1, _⟩ => show k.val < win0_0.xsize (grid0.coords t) 1; rw [x01]; exact k.isLt
  unfold inFull Window.fill
  rw [dif_pos hm]
  unfold inBlk iblk
  rw [View.read_apply]
  show m ((c.tc : Thread nD τ).loc main_arg0) (((cfg0.win 0).blk t).view.emb _) = _
  congr 1
  funext a; apply Fin.ext
  match a with
  | ⟨0, _⟩ => show win0_0.index t 0 * 4096 + 1 * r.val = 4096 * t.val + r.val; rw [e00]; omega
  | ⟨1, _⟩ => show win0_0.index t 1 * 3 + 1 * k.val = k.val; rw [e01]; omega

/-- What point `t` writes back is its block of the [4000000, 9] result of the argument: entry `(r, j)` of the stored
    block is the `j`-th number of the result row of row `4096·t + r`. -/
theorem flushed_eq (c : Dev nD) (t : Fin cfg0.N) :
    (dats (F := Ideal) m 0 c).flushed 1 t
      = ((cfg0.win 1).blk t).view.read (Elt Ideal) (Cert.ArraySpec.out9 (F := Ideal) (m ((c.tc : Thread nD τ).loc main_arg0))) := by
  show (cfg0.win 1).cut (grid0.coords t) ((dats m 0 c).after 1 t) = _
  rw [after0_1]
  funext y
  show outBlock (inFull m c t) (win0_1.xinj (grid0.coords t) y) = _
  obtain ⟨e10, e11, e00, e01, x10, x11, x00, x01⟩ := idx0 t
  have hy0 : (y 0).val < win0_1.xsize (grid0.coords t) 0 := (y 0).isLt
  have hy1 : (y 1).val < win0_1.xsize (grid0.coords t) 1 := (y 1).isLt
  have hr : (y 0).val < 4096 := by rw [x10] at hy0; omega
  have hj : (y 1).val < 9 := by rw [x11] at hy1; exact hy1
  have hn : 4096 * t.val + (y 0).val < 4000000 := by rw [x10] at hy0; omega
  have e : win0_1.xinj (grid0.coords t) y = ix2 (⟨(y 0).val, hr⟩ : Fin 4096) (⟨(y 1).val, hj⟩ : Fin 9) :=
    funext fun a => Fin.ext (by match a with | ⟨0, _⟩ => rfl | ⟨1, _⟩ => rfl)
  rw [e, outBlock_apply, inFull_apply m c t ⟨(y 0).val, hr⟩ 0 hn, inFull_apply m c t ⟨(y 0).val, hr⟩ 1 hn,
    inFull_apply m c t ⟨(y 0).val, hr⟩ 2 hn, View.read_apply]
  show _ = Cert.ArraySpec.out9 (F := Ideal) (m ((c.tc : Thread nD τ).loc main_arg0)) (((cfg0.win 1).blk t).view.emb y)
  have ei : ((cfg0.win 1).blk t).view.emb y
      = ix2 (⟨4096 * t.val + (y 0).val, hn⟩ : Fin 4000000) (⟨(y 1).val, hj⟩ : Fin 9) := by
    funext a; apply Fin.ext
    match a with
    | ⟨0, _⟩ => show win0_1.index t 0 * 4096 + 1 * (y 0).val = 4096 * t.val + (y 0).val; rw [e10]; omega
    | ⟨1, _⟩ => show win0_1.index t 1 * 9 + 1 * (y 1).val = (y 1).val; rw [e11]; omega
  rw [ei, Cert.ArraySpec.out9_apply]
  rfl

/-! ## The blocks cover the array -/

/-- Every index of the [4000000, 9] array lies in some point's written-back block: row `n` in block `n / 4096`. -/
theorem cover (i : S4000000x9.Idx) :
    ∃ t : Fin cfg0.N, (cfg0.win 1).flush t = true ∧ i ∈ ((cfg0.win 1).blk t).view.set := by
  have hi0 : (i 0).val < 4000000 := (i 0).isLt
  have hi1 : (i 1).val < 9 := (i 1).isLt
  have hN : cfg0.N = 977 := N_0
  let t : Fin cfg0.N := ⟨(i 0).val / 4096, by rw [hN]; omega⟩
  have ht : t.val = (i 0).val / 4096 := rfl
  refine ⟨t, flush0_1 t, ?_⟩
  obtain ⟨e10, e11, e00, e01, x10, x11, x00, x01⟩ := idx0 t
  show i ∈ ((View.whole main_v0).slice (win0_1.rect t)).set
  rw [View.set_slice_whole, Rect.mem_set_unit]
  intro a
  match a with
  | ⟨0, _⟩ =>
    show win0_1.index t 0 * 4096 ≤ (i 0).val ∧ (i 0).val < win0_1.index t 0 * 4096 + win0_1.xsize (grid0.coords t) 0
    rw [e10, x10, ht]; omega
  | ⟨1, _⟩ =>
    show win0_1.index t 1 * 9 ≤ (i 1).val ∧ (i 1).val < win0_1.index t 1 * 9 + win0_1.xsize (grid0.coords t) 1
    rw [e11, x11]; omega

/-- The [4000000, 9] array after the run: the result of the argument. -/
theorem final_v0 (c : Dev nD) :
    (dats (F := Ideal) m 0 c).arrAt 1 cfg0.N = Cert.ArraySpec.out9 (F := Ideal) (m ((c.tc : Thread nD τ).loc main_arg0)) :=
  (dats (F := Ideal) m 0 c).arrAt_eq_of_cover 1 _ (fun t _ => flushed_eq m c t) cover

/-! ## The run, read -/

/-- Every weakly fair execution of the idealized kernel's program terminates without a fault, with the result
    array at `out33` of the argument array and the argument array unchanged. -/
theorem kernel_run : θ_run (defs (F := Ideal)) (onTc (τ := τ) (main (F := Ideal))) ⟨m, fun _ => 0, ρ⟩ (fun r => ∀ c : Dev nD,
      r.2.mem ((c.tc : Thread nD τ).loc main_v1) = Cert.ArraySpec.out33 (F := Ideal) (m ((c.tc : Thread nD τ).loc main_arg0))
      ∧ r.2.mem ((c.tc : Thread nD τ).loc main_arg0) = m ((c.tc : Thread nD τ).loc main_arg0)) := by
  refine (θ_run defs _ _).mono (fun r h c => ⟨?_, ?_⟩) (run_main (F := Ideal) m ρ)
  · -- the reshape's result buffer is no array of the pipeline: it holds what the reshape leaves there
    refine ((h c).2 main_v1 (Pipeline.mem_restRefs_of main_v1 rfl (by intro w; fin_cases w <;> decide))).trans ?_
    unfold Pipeline.afterTail₀
    show StableHlo.after hostOps1 _ (Proc.devRef .tc main_v1) = _
    after_results
    -- the reshape reads the [4000000, 9] array as the run leaves it
    have hw : Pipeline.withArrays (cfgs 0).spec c (V0 m c) (fun w => (dats m 0 c).arrAt w (cfgs 0).N) (Proc.devRef .tc main_v0)
        = Cert.ArraySpec.out9 (F := Ideal) (m ((c.tc : Thread nD τ).loc main_arg0)) :=
      (Pipeline.withArrays_arr spec0 launch0.win.arr_inj c _ _ 1).trans (final_v0 m c)
    rw [hw]
    funext i
    exact congrFun (Cert.ArraySpec.shapeCast_out9 (F := Ideal) _ shapeCasts_S4000000x9_S4000000x3x3) i
  · -- the argument array is an input window's: never written back
    exact ((h c).1 0).trans (((dats m 0 c).arrAt_in 0 rfl _).trans ((A_eq m c 0).trans (V_main_arg0 m c)))

end Cert.KernelIdeal.Hand

end
-- ==== Proof.Consts.lean ====
/-
  The two float literals whose exact values the comparison uses: the f32 word of `1.0` denotes the real number one
  (sign 0, biased exponent 127, zero mantissa), and the zero word denotes zero.
-/
import Idealize.ShloMosaic.PureOps.Ideal.Laws

namespace Cert.Consts

open Idealize.ShloMosaic

/-- The f32 word `0x3F800000` is the real number one. -/
theorem ofBits_one_f32 : Ideal.ofBits .f32 0x3F800000#32 = 1 := by
  simp [Ideal.ofBits, Ideal.ieee, -EReal.coe_mul]; norm_num

/-- The f32 zero word is zero. -/
theorem ofBits_zero_f32 : Ideal.ofBits .f32 0x00000000#32 = 0 := Ideal.ofBits_zero_f32

end Cert.Consts
-- ==== Proof.RowAlgebra.lean ====
/-
  The matrix form of a result row, and that the written-out nine entries are that matrix.

  For real coordinates `x, y, z` let `K` be the skew matrix of `(x, y, z)`, `s = 0 + (x·x + y·y + z·z)` (a sum with
  initial value zero), `θ = √s`, `B = (1 − cos θ) / s`, `C = (1 − sin θ / θ) / s`. The reference's entry `(a, b)` is
  `(I a b + B · K a b) + C · Σ_k K a k · K k b`. The kernel writes the same entry as `1 + C·(0 − (u² + v²))` on the
  diagonal and `±B·w + C·(u·v)` off it. They agree on the extended reals whatever `B` and `C` are (they may be
  infinite when `s = 0`): `B · 0 = 0`, `0 + t = t`, `B · (−w) = (0 − B) · w`, and the polynomial parts are equal
  real numbers.
-/
import proofs.«181935_j18983755448816_1_alg».proof.Proof.RowSpec
import proofs.«181935_j18983755448816_1_alg».proof.Proof.ArraySpec
import proofs.«181935_j18983755448816_1_alg».proof.Proof.Consts
import Idealize.ShloMosaic.PureOps.Ideal.Laws

noncomputable section

open scoped BigOperators

namespace Cert.RowAlgebra

open Idealize.ShloMosaic

/-- The shift, as an extended real. -/
def eps : EReal := Ideal.ofBits .f32 0x2EDBE6FF#32

/-- The skew matrix of `(x, y, z)`. -/
def skew (x y z : EReal) (a b : Fin 3) : EReal :=
  match a, b with
  | ⟨0, _⟩, ⟨0, _⟩ => 0
  | ⟨0, _⟩, ⟨1, _⟩ => -z
  | ⟨0, _⟩, ⟨2, _⟩ => y
  | ⟨1, _⟩, ⟨0, _⟩ => z
  | ⟨1, _⟩, ⟨1, _⟩ => 0
  | ⟨1, _⟩, ⟨2, _⟩ => -x
  | ⟨2, _⟩, ⟨0, _⟩ => -y
  | ⟨2, _⟩, ⟨1, _⟩ => x
  | ⟨2, _⟩, ⟨2, _⟩ => 0

/-- The identity matrix. -/
def eye (a b : Fin 3) : EReal := if a = b then 1 else 0

/-- The shifted coordinates of an input row `(p, q, r)`, as a vector. -/
def shifted (p q r : EReal) : Fin 3 → EReal := ![p + eps, q + eps, r + eps]

/-- `s`: zero plus the sum of the squares of the shifted coordinates. -/
def sqsum (p q r : EReal) : EReal := 0 + ∑ k : Fin 3, shifted p q r k * shifted p q r k

/-- `B = (1 − cos √s) / s`. -/
def coefB (p q r : EReal) : EReal :=
  Ideal.div (1 - Ideal.cos (Ideal.sqrt (sqsum p q r))) (sqsum p q r)

/-- `C = (1 − sin √s / √s) / s`. -/
def coefC (p q r : EReal) : EReal :=
  Ideal.div (1 - Ideal.div (Ideal.sin (Ideal.sqrt (sqsum p q r))) (Ideal.sqrt (sqsum p q r))) (sqsum p q r)

/-- Entry `(a, b)` of `(I + B·K) + C·K²` for the input row `(p, q, r)`. -/
def refEntry (p q r : EReal) (a b : Fin 3) : EReal :=
  (eye a b + coefB p q r * skew (p + eps) (q + eps) (r + eps) a b)
    + coefC p q r * ∑ k : Fin 3, skew (p + eps) (q + eps) (r + eps) a k * skew (p + eps) (q + eps) (r + eps) k b

/-- The shift is a real number. -/
theorem eps_real : ∃ e : ℝ, eps = (e : EReal) := by
  unfold eps
  simp [Ideal.ofBits, Ideal.ieee, -EReal.coe_mul]

theorem kernel_eps : Cert.RowSpec.eps (F := Ideal) = eps := rfl
theorem kernel_one : Cert.RowSpec.one (F := Ideal) = 1 := Cert.Consts.ofBits_one_f32
theorem kernel_zero : Cert.RowSpec.zero (F := Ideal) = 0 := Cert.Consts.ofBits_zero_f32

/-- The kernel's `s` is the reference's: `(x·x + y·y) + z·z = 0 + Σ_k v k · v k`. -/
theorem sqn_eq (p q r : EReal) :
    Cert.RowSpec.sqn (F := Ideal) (p + eps) (q + eps) (r + eps) = sqsum p q r := by
  show ((p + eps) * (p + eps) + (q + eps) * (q + eps)) + (r + eps) * (r + eps) = _
  unfold sqsum shifted
  rw [Fin.sum_univ_three, zero_add]
  rfl

/-- The kernel's `B` is the reference's. -/
theorem coefB_eq (p q r : EReal) :
    Cert.RowSpec.coefB (F := Ideal) (p + eps) (q + eps) (r + eps) = coefB p q r := by
  show Ideal.div (Cert.RowSpec.one (F := Ideal)
      - Ideal.cos (Ideal.sqrt (Cert.RowSpec.sqn (F := Ideal) (p + eps) (q + eps) (r + eps))))
      (Cert.RowSpec.sqn (F := Ideal) (p + eps) (q + eps) (r + eps)) = _
  rw [sqn_eq, kernel_one]
  rfl

/-- The kernel's `C` is the reference's. -/
theorem coefC_eq (p q r : EReal) :
    Cert.RowSpec.coefC (F := Ideal) (p + eps) (q + eps) (r + eps) = coefC p q r := by
  show Ideal.div (Cert.RowSpec.one (F := Ideal)
      - Ideal.div (Ideal.sin (Ideal.sqrt (Cert.RowSpec.sqn (F := Ideal) (p + eps) (q + eps) (r + eps))))
          (Ideal.sqrt (Cert.RowSpec.sqn (F := Ideal) (p + eps) (q + eps) (r + eps))))
      (Cert.RowSpec.sqn (F := Ideal) (p + eps) (q + eps) (r + eps)) = _
  rw [sqn_eq, kernel_one]
  rfl

theorem diag_eq (C u v : EReal) :
    Cert.RowSpec.diag (F := Ideal) C u v = 1 + C * (0 - (u * u + v * v)) := by
  show Cert.RowSpec.one (F := Ideal) + C * (Cert.RowSpec.zero (F := Ideal) - (u * u + v * v)) = _
  rw [kernel_one, kernel_zero]

theorem offNeg_eq (B C w u v : EReal) :
    Cert.RowSpec.offNeg (F := Ideal) B C w u v = (0 - B) * w + C * (u * v) := by
  show (Cert.RowSpec.zero (F := Ideal) - B) * w + C * (u * v) = _
  rw [kernel_zero]

theorem offPos_eq (B C w u v : EReal) :
    Cert.RowSpec.offPos (F := Ideal) B C w u v = B * w + C * (u * v) := rfl

/-- The kernel's written-out entry `(a, b)` with coefficients `B`, `C` and coordinates `x, y, z`. -/
def kernelEntry (B C x y z : EReal) (a b : Fin 3) : EReal :=
  match a, b with
  | ⟨0, _⟩, ⟨0, _⟩ => 1 + C * (0 - (y * y + z * z))
  | ⟨0, _⟩, ⟨1, _⟩ => (0 - B) * z + C * (x * y)
  | ⟨0, _⟩, ⟨2, _⟩ => B * y + C * (x * z)
  | ⟨1, _⟩, ⟨0, _⟩ => B * z + C * (x * y)
  | ⟨1, _⟩, ⟨1, _⟩ => 1 + C * (0 - (x * x + z * z))
  | ⟨1, _⟩, ⟨2, _⟩ => (0 - B) * x + C * (y * z)
  | ⟨2, _⟩, ⟨0, _⟩ => (0 - B) * y + C * (x * z)
  | ⟨2, _⟩, ⟨1, _⟩ => B * x + C * (y * z)
  | ⟨2, _⟩, ⟨2, _⟩ => 1 + C * (0 - (x * x + y * y))

/-- Entry `3·a + b` of the kernel's nine is the written-out entry `(a, b)`. -/
theorem entries_flat (x y z : EReal) (a b : Fin 3) :
    Cert.RowSpec.entries (F := Ideal) x y z (Cert.ArraySpec.flat a b)
      = kernelEntry (Cert.RowSpec.coefB (F := Ideal) x y z) (Cert.RowSpec.coefC (F := Ideal) x y z) x y z a b := by
  fin_cases a <;> fin_cases b
  · exact diag_eq _ _ _
  · exact offNeg_eq _ _ _ _ _
  · exact offPos_eq _ _ _ _ _
  · exact offPos_eq _ _ _ _ _
  · exact diag_eq _ _ _
  · exact offNeg_eq _ _ _ _ _
  · exact offNeg_eq _ _ _ _ _
  · exact offPos_eq _ _ _ _ _
  · exact diag_eq _ _ _

/-- The written-out entry is the matrix entry, for real coordinates and any coefficients. -/
theorem kernelEntry_eq (B C : EReal) (X Y Z : ℝ) (a b : Fin 3) :
    kernelEntry B C X Y Z a b
      = (eye a b + B * skew X Y Z a b) + C * ∑ k : Fin 3, skew X Y Z a k * skew X Y Z k b := by
  fin_cases a <;> fin_cases b
  · show (1:EReal) + C * (0 - ((Y:EReal) * Y + Z * Z))
      = ((1:EReal) + B * 0) + C * ∑ k : Fin 3, skew X Y Z 0 k * skew X Y Z k 0
    rw [Fin.sum_univ_three]
    show _ = ((1:EReal) + B * 0) + C * ((0:EReal) * 0 + (-(Z:EReal)) * Z + (Y:EReal) * (-(Y:EReal)))
    have h : ((0:EReal) * 0 + (-(Z:EReal)) * Z + (Y:EReal) * (-(Y:EReal))) = 0 - ((Y:EReal) * Y + Z * Z) := by
      norm_cast; ring
    rw [h, mul_zero, add_zero]
  · show (0 - B) * (Z:EReal) + C * ((X:EReal) * Y)
      = ((0:EReal) + B * (-(Z:EReal))) + C * ∑ k : Fin 3, skew X Y Z 0 k * skew X Y Z k 1
    rw [Fin.sum_univ_three]
    show _ = ((0:EReal) + B * (-(Z:EReal))) + C * ((0:EReal) * (-(Z:EReal)) + (-(Z:EReal)) * 0 + (Y:EReal) * X)
    have h : ((0:EReal) * (-(Z:EReal)) + (-(Z:EReal)) * 0 + (Y:EReal) * X) = (X:EReal) * Y := by
      norm_cast; ring
    rw [h, zero_add, mul_neg, sub_eq_add_neg, zero_add, neg_mul]
  · show B * (Y:EReal) + C * ((X:EReal) * Z)
      = ((0:EReal) + B * (Y:EReal)) + C * ∑ k : Fin 3, skew X Y Z 0 k * skew X Y Z k 2
    rw [Fin.sum_univ_three]
    show _ = ((0:EReal) + B * (Y:EReal)) + C * ((0:EReal) * (Y:EReal) + (-(Z:EReal)) * (-(X:EReal)) + (Y:EReal) * 0)
    have h : ((0:EReal) * (Y:EReal) + (-(Z:EReal)) * (-(X:EReal)) + (Y:EReal) * 0) = (X:EReal) * Z := by
      norm_cast; ring
    rw [h, zero_add]
  · show B * (Z:EReal) + C * ((X:EReal) * Y)
      = ((0:EReal) + B * (Z:EReal)) + C * ∑ k : Fin 3, skew X Y Z 1 k * skew X Y Z k 0
    rw [Fin.sum_univ_three]
    show _ = ((0:EReal) + B * (Z:EReal)) + C * ((Z:EReal) * 0 + (0:EReal) * (Z:EReal) + (-(X:EReal)) * (-(Y:EReal)))
    have h : ((Z:EReal) * 0 + (0:EReal) * (Z:EReal) + (-(X:EReal)) * (-(Y:EReal))) = (X:EReal) * Y := by
      norm_cast; ring
    rw [h, zero_add]
  · show (1:EReal) + C * (0 - ((X:EReal) * X + Z * Z))
      = ((1:EReal) + B * 0) + C * ∑ k : Fin 3, skew X Y Z 1 k * skew X Y Z k 1
    rw [Fin.sum_univ_three]
    show _ = ((1:EReal) + B * 0) + C * ((Z:EReal) * (-(Z:EReal)) + (0:EReal) * 0 + (-(X:EReal)) * X)
    have h : ((Z:EReal) * (-(Z:EReal)) + (0:EReal) * 0 + (-(X:EReal)) * X) = 0 - ((X:EReal) * X + Z * Z) := by
      norm_cast; ring
    rw [h, mul_zero, add_zero]
  · show (0 - B) * (X:EReal) + C * ((Y:EReal) * Z)
      = ((0:EReal) + B * (-(X:EReal))) + C * ∑ k : Fin 3, skew X Y Z 1 k * skew X Y Z k 2
    rw [Fin.sum_univ_three]
    show _ = ((0:EReal) + B * (-(X:EReal))) + C * ((Z:EReal) * (Y:EReal) + (0:EReal) * (-(X:EReal)) + (-(X:EReal)) * 0)
    have h : ((Z:EReal) * (Y:EReal) + (0:EReal) * (-(X:EReal)) + (-(X:EReal)) * 0) = (Y:EReal) * Z := by
      norm_cast; ring
    rw [h, zero_add, mul_neg, sub_eq_add_neg, zero_add, neg_mul]
  · show (0 - B) * (Y:EReal) + C * ((X:EReal) * Z)
      = ((0:EReal) + B * (-(Y:EReal))) + C * ∑ k : Fin 3, skew X Y Z 2 k * skew X Y Z k 0
    rw [Fin.sum_univ_three]
    show _ = ((0:EReal) + B * (-(Y:EReal))) + C * ((-(Y:EReal)) * 0 + (X:EReal) * (Z:EReal) + (0:EReal) * (-(Y:EReal)))
    have h : ((-(Y:EReal)) * 0 + (X:EReal) * (Z:EReal) + (0:EReal) * (-(Y:EReal))) = (X:EReal) * Z := by
      norm_cast; ring
    rw [h, zero_add, mul_neg, sub_eq_add_neg, zero_add, neg_mul]
  · show B * (X:EReal) + C * ((Y:EReal) * Z)
      = ((0:EReal) + B * (X:EReal)) + C * ∑ k : Fin 3, skew X Y Z 2 k * skew X Y Z k 1
    rw [Fin.sum_univ_three]
    show _ = ((0:EReal) + B * (X:EReal)) + C * ((-(Y:EReal)) * (-(Z:EReal)) + (X:EReal) * 0 + (0:EReal) * (X:EReal))
    have h : ((-(Y:EReal)) * (-(Z:EReal)) + (X:EReal) * 0 + (0:EReal) * (X:EReal)) = (Y:EReal) * Z := by
      norm_cast; ring
    rw [h, zero_add]
  · show (1:EReal) + C * (0 - ((X:EReal) * X + Y * Y))
      = ((1:EReal) + B * 0) + C * ∑ k : Fin 3, skew X Y Z 2 k * skew X Y Z k 2
    rw [Fin.sum_univ_three]
    show _ = ((1:EReal) + B * 0) + C * ((-(Y:EReal)) * (Y:EReal) + (X:EReal) * (-(X:EReal)) + (0:EReal) * 0)
    have h : ((-(Y:EReal)) * (Y:EReal) + (X:EReal) * (-(X:EReal)) + (0:EReal) * 0) = 0 - ((X:EReal) * X + Y * Y) := by
      norm_cast; ring
    rw [h, mul_zero, add_zero]

/-- For a real input row the kernel's written-out entry `3·a + b` is the matrix entry `(a, b)`. -/
theorem row_eq_refEntry (p q r : ℝ) (a b : Fin 3) :
    Cert.RowSpec.row (F := Ideal) (p : EReal) (q : EReal) (r : EReal) (Cert.ArraySpec.flat a b) = refEntry p q r a b := by
  obtain ⟨e, he⟩ := eps_real
  show Cert.RowSpec.entries (F := Ideal) ((p : EReal) + eps) ((q : EReal) + eps) ((r : EReal) + eps)
      (Cert.ArraySpec.flat a b) = _
  rw [entries_flat, coefB_eq, coefC_eq]
  unfold refEntry
  generalize coefB (p : EReal) q r = B
  generalize coefC (p : EReal) q r = C
  rw [he, ← EReal.coe_add, ← EReal.coe_add, ← EReal.coe_add]
  exact kernelEntry_eq B C _ _ _ a b

end Cert.RowAlgebra

end
-- ==== Proof.RefRead.lean ====
/-
  The reference's result read at one entry.

  The reference program shifts the input by `ε`, forms the squared norm of each row as a sum with initial value zero,
  builds the skew matrix `K` of the shifted row by slicing, negating, broadcasting and concatenating, takes the matrix
  product `K·K` row by row, and returns `(I + B·K) + C·K²` with `B` and `C` computed from the squared norm; the identity
  matrix is the comparison of two index grids turned into floats. Read at entry `(n, a, b)`, operation by operation,
  this is `RowAlgebra.refEntry` of row `n` of the input.
-/
import proofs.«181935_j18983755448816_1_alg».proof.Proof.Gen.ReferenceIdeal.Read
import proofs.«181935_j18983755448816_1_alg».proof.Proof.RowAlgebra
import proofs.«181935_j18983755448816_1_alg».proof.Proof.Consts
import Idealize.ShloMosaic.Lib.ValueIdx
import Idealize.ShloMosaic.Lib.Pipeline.Value

noncomputable section

open scoped BigOperators

namespace Cert.RefRead

open Cert.ReferenceIdeal Cert.ReferenceIdeal.Gen Cert.ReferenceIdeal.Read
open Idealize.ShloMosaic Idealize.ShloMosaic.ValueIdx

open Cert.RowAlgebra (eps skew eye shifted sqsum coefB coefC refEntry)

/-- The shifted input at an entry. -/
theorem v1_apply (x0 : (⟨S4000000x3, .f32⟩ : BufTy).Contents (Elt Ideal)) (n : Fin 4000000) (k : Fin 3) :
    val_main_v1 (F := Ideal) x0 (ix2 n k) = x0 (ix2 n k) + eps := by
  rw [val_main_v1_apply, val_main_v0_apply, val_main_cst_apply]
  rfl

theorem v7_apply (x0 : (⟨S4000000x3, .f32⟩ : BufTy).Contents (Elt Ideal)) (n : Fin 4000000) :
    val_main_v7 (F := Ideal) x0 (ix1 n) = x0 (ix2 n (0 : Fin 3)) + eps := by
  rw [val_main_v7_apply, val_main_v6_apply]
  have e : idx_main_v6 (idx_main_v7 (ix1 n)) = ix2 n (0 : Fin 3) :=
    funext fun d => Fin.ext (by match d with | ⟨0, _⟩ => exact Nat.div_one _ | ⟨1, _⟩ => rfl)
  rw [e, v1_apply]

theorem v9_apply (x0 : (⟨S4000000x3, .f32⟩ : BufTy).Contents (Elt Ideal)) (n : Fin 4000000) :
    val_main_v9 (F := Ideal) x0 (ix1 n) = x0 (ix2 n (1 : Fin 3)) + eps := by
  rw [val_main_v9_apply, val_main_v8_apply]
  have e : idx_main_v8 (idx_main_v9 (ix1 n)) = ix2 n (1 : Fin 3) :=
    funext fun d => Fin.ext (by match d with | ⟨0, _⟩ => exact Nat.div_one _ | ⟨1, _⟩ => rfl)
  rw [e, v1_apply]

theorem v11_apply (x0 : (⟨S4000000x3, .f32⟩ : BufTy).Contents (Elt Ideal)) (n : Fin 4000000) :
    val_main_v11 (F := Ideal) x0 (ix1 n) = x0 (ix2 n (2 : Fin 3)) + eps := by
  rw [val_main_v11_apply, val_main_v10_apply]
  have e : idx_main_v10 (idx_main_v11 (ix1 n)) = ix2 n (2 : Fin 3) :=
    funext fun d => Fin.ext (by match d with | ⟨0, _⟩ => exact Nat.div_one _ | ⟨1, _⟩ => rfl)
  rw [e, v1_apply]

/-- Three one-column pieces joined along the columns, read at an entry: the piece the column names, at the row. -/
theorem concat_cols_apply {α : Type} (y0 y1 y2 : S4000000x1.Idx → α)
    (h : Shape.Concatenates [S4000000x1, S4000000x1, S4000000x1] S4000000x3 1) (n : Fin 4000000) (k : Fin 3) :
    concatenate S4000000x3 1 [⟨S4000000x1, y0⟩, ⟨S4000000x1, y1⟩, ⟨S4000000x1, y2⟩] h (ix2 n k)
      = (![y0, y1, y2] k) (ix2 n (0 : Fin 1)) := by
  match k with
  | ⟨0, _⟩ =>
    exact concatenate_apply_piece (t := S4000000x3) (1 : Fin 2) [⟨S4000000x1, y0⟩, ⟨S4000000x1, y1⟩, ⟨S4000000x1, y2⟩] h (ix2 n _) 0 (by show 0 < 3; omega) S4000000x1 y0 rfl rfl 0 rfl (ix2 n (0 : Fin 1))
      (fun b hb => by match b with | ⟨0, _⟩ => rfl | ⟨1, _⟩ => exact absurd rfl hb) rfl
  | ⟨1, _⟩ =>
    exact concatenate_apply_piece (t := S4000000x3) (1 : Fin 2) [⟨S4000000x1, y0⟩, ⟨S4000000x1, y1⟩, ⟨S4000000x1, y2⟩] h (ix2 n _) 1 (by show 1 < 3; omega) S4000000x1 y1 rfl rfl 1 rfl (ix2 n (0 : Fin 1))
      (fun b hb => by match b with | ⟨0, _⟩ => rfl | ⟨1, _⟩ => exact absurd rfl hb) rfl
  | ⟨2, _⟩ =>
    exact concatenate_apply_piece (t := S4000000x3) (1 : Fin 2) [⟨S4000000x1, y0⟩, ⟨S4000000x1, y1⟩, ⟨S4000000x1, y2⟩] h (ix2 n _) 2 (by show 2 < 3; omega) S4000000x1 y2 rfl rfl 2 rfl (ix2 n (0 : Fin 1))
      (fun b hb => by match b with | ⟨0, _⟩ => rfl | ⟨1, _⟩ => exact absurd rfl hb) rfl

/-- Three one-row pieces joined along the rows, read at an entry: the piece the row names, at its one row. -/
theorem concat_rows_apply {α : Type} (y0 y1 y2 : S4000000x1x3.Idx → α)
    (h : Shape.Concatenates [S4000000x1x3, S4000000x1x3, S4000000x1x3] S4000000x3x3 1) (n : Fin 4000000) (a k : Fin 3) :
    concatenate S4000000x3x3 1 [⟨S4000000x1x3, y0⟩, ⟨S4000000x1x3, y1⟩, ⟨S4000000x1x3, y2⟩] h (ix3 n a k)
      = (![y0, y1, y2] a) (ix3 n (0 : Fin 1) k) := by
  match a with
  | ⟨0, _⟩ =>
    exact concatenate_apply_piece (t := S4000000x3x3) (1 : Fin 3) [⟨S4000000x1x3, y0⟩, ⟨S4000000x1x3, y1⟩, ⟨S4000000x1x3, y2⟩] h (ix3 n _ k) 0 (by show 0 < 3; omega) S4000000x1x3 y0 rfl rfl 0 rfl (ix3 n (0 : Fin 1) k)
      (fun b hb => by match b with | ⟨0, _⟩ => rfl | ⟨1, _⟩ => exact absurd rfl hb | ⟨2, _⟩ => rfl) rfl
  | ⟨1, _⟩ =>
    exact concatenate_apply_piece (t := S4000000x3x3) (1 : Fin 3) [⟨S4000000x1x3, y0⟩, ⟨S4000000x1x3, y1⟩, ⟨S4000000x1x3, y2⟩] h (ix3 n _ k) 1 (by show 1 < 3; omega) S4000000x1x3 y1 rfl rfl 1 rfl (ix3 n (0 : Fin 1) k)
      (fun b hb => by match b with | ⟨0, _⟩ => rfl | ⟨1, _⟩ => exact absurd rfl hb | ⟨2, _⟩ => rfl) rfl
  | ⟨2, _⟩ =>
    exact concatenate_apply_piece (t := S4000000x3x3) (1 : Fin 3) [⟨S4000000x1x3, y0⟩, ⟨S4000000x1x3, y1⟩, ⟨S4000000x1x3, y2⟩] h (ix3 n _ k) 2 (by show 2 < 3; omega) S4000000x1x3 y2 rfl rfl 2 rfl (ix3 n (0 : Fin 1) k)
      (fun b hb => by match b with | ⟨0, _⟩ => rfl | ⟨1, _⟩ => exact absurd rfl hb | ⟨2, _⟩ => rfl) rfl

/-- The zero column. -/
theorem zeros_apply (n : Fin 4000000) : val_main_v12 (F := Ideal) (ix1 n) = 0 := by
  rw [val_main_v12_apply, val_main_cst_1_apply]
  exact Cert.Consts.ofBits_zero_f32

/-- Row 0 of the skew matrix: `(0, -z, y)`. -/
theorem v17_apply (x0 : (⟨S4000000x3, .f32⟩ : BufTy).Contents (Elt Ideal)) (n : Fin 4000000) (k : Fin 3) :
    val_main_v17 (F := Ideal) x0 (ix2 n k) = skew (x0 (ix2 n (0 : Fin 3)) + eps) (x0 (ix2 n (1 : Fin 3)) + eps) (x0 (ix2 n (2 : Fin 3)) + eps) 0 k := by
  unfold val_main_v17
  rw [concat_cols_apply]
  match k with
  | ⟨0, _⟩ =>
    show val_main_v14 (F := Ideal) (ix2 n (0 : Fin 1)) = 0
    rw [val_main_v14_apply, show idx_main_v14 (ix2 n (0 : Fin 1)) = ix1 n from eq_ix1 _, zeros_apply]
  | ⟨1, _⟩ =>
    show val_main_v15 (F := Ideal) x0 (ix2 n (0 : Fin 1)) = -(x0 (ix2 n (2 : Fin 3)) + eps)
    rw [val_main_v15_apply, show idx_main_v15 (ix2 n (0 : Fin 1)) = ix1 n from eq_ix1 _, val_main_v13_apply, v11_apply]
    rfl
  | ⟨2, _⟩ =>
    show val_main_v16 (F := Ideal) x0 (ix2 n (0 : Fin 1)) = x0 (ix2 n (1 : Fin 3)) + eps
    rw [val_main_v16_apply, show idx_main_v16 (ix2 n (0 : Fin 1)) = ix1 n from eq_ix1 _, v9_apply]

/-- Row 1 of the skew matrix: `(z, 0, -x)`. -/
theorem v22_apply (x0 : (⟨S4000000x3, .f32⟩ : BufTy).Contents (Elt Ideal)) (n : Fin 4000000) (k : Fin 3) :
    val_main_v22 (F := Ideal) x0 (ix2 n k) = skew (x0 (ix2 n (0 : Fin 3)) + eps) (x0 (ix2 n (1 : Fin 3)) + eps) (x0 (ix2 n (2 : Fin 3)) + eps) 1 k := by
  unfold val_main_v22
  rw [concat_cols_apply]
  match k with
  | ⟨0, _⟩ =>
    show val_main_v19 (F := Ideal) x0 (ix2 n (0 : Fin 1)) = x0 (ix2 n (2 : Fin 3)) + eps
    rw [val_main_v19_apply, show idx_main_v19 (ix2 n (0 : Fin 1)) = ix1 n from eq_ix1 _, v11_apply]
  | ⟨1, _⟩ =>
    show val_main_v20 (F := Ideal) (ix2 n (0 : Fin 1)) = 0
    rw [val_main_v20_apply, show idx_main_v20 (ix2 n (0 : Fin 1)) = ix1 n from eq_ix1 _, zeros_apply]
  | ⟨2, _⟩ =>
    show val_main_v21 (F := Ideal) x0 (ix2 n (0 : Fin 1)) = -(x0 (ix2 n (0 : Fin 3)) + eps)
    rw [val_main_v21_apply, show idx_main_v21 (ix2 n (0 : Fin 1)) = ix1 n from eq_ix1 _, val_main_v18_apply, v7_apply]
    rfl

/-- Row 2 of the skew matrix: `(-y, x, 0)`. -/
theorem v27_apply (x0 : (⟨S4000000x3, .f32⟩ : BufTy).Contents (Elt Ideal)) (n : Fin 4000000) (k : Fin 3) :
    val_main_v27 (F := Ideal) x0 (ix2 n k) = skew (x0 (ix2 n (0 : Fin 3)) + eps) (x0 (ix2 n (1 : Fin 3)) + eps) (x0 (ix2 n (2 : Fin 3)) + eps) 2 k := by
  unfold val_main_v27
  rw [concat_cols_apply]
  match k with
  | ⟨0, _⟩ =>
    show val_main_v24 (F := Ideal) x0 (ix2 n (0 : Fin 1)) = -(x0 (ix2 n (1 : Fin 3)) + eps)
    rw [val_main_v24_apply, show idx_main_v24 (ix2 n (0 : Fin 1)) = ix1 n from eq_ix1 _, val_main_v23_apply, v9_apply]
    rfl
  | ⟨1, _⟩ =>
    show val_main_v25 (F := Ideal) x0 (ix2 n (0 : Fin 1)) = x0 (ix2 n (0 : Fin 3)) + eps
    rw [val_main_v25_apply, show idx_main_v25 (ix2 n (0 : Fin 1)) = ix1 n from eq_ix1 _, v7_apply]
  | ⟨2, _⟩ =>
    show val_main_v26 (F := Ideal) (ix2 n (0 : Fin 1)) = 0
    rw [val_main_v26_apply, show idx_main_v26 (ix2 n (0 : Fin 1)) = ix1 n from eq_ix1 _, zeros_apply]

/-- The skew matrix of the shifted row, read at an entry. -/
theorem v31_apply (x0 : (⟨S4000000x3, .f32⟩ : BufTy).Contents (Elt Ideal)) (n : Fin 4000000) (a k : Fin 3) :
    val_main_v31 (F := Ideal) x0 (ix3 n a k) = skew (x0 (ix2 n (0 : Fin 3)) + eps) (x0 (ix2 n (1 : Fin 3)) + eps) (x0 (ix2 n (2 : Fin 3)) + eps) a k := by
  unfold val_main_v31
  rw [concat_rows_apply]
  match a with
  | ⟨0, _⟩ =>
    show val_main_v28 (F := Ideal) x0 (ix3 n (0 : Fin 1) k) = _
    rw [val_main_v28_apply, show idx_main_v28 (ix3 n (0 : Fin 1) k) = ix2 n k from eq_ix2 _]
    exact v17_apply x0 n k
  | ⟨1, _⟩ =>
    show val_main_v29 (F := Ideal) x0 (ix3 n (0 : Fin 1) k) = _
    rw [val_main_v29_apply, show idx_main_v29 (ix3 n (0 : Fin 1) k) = ix2 n k from eq_ix2 _]
    exact v22_apply x0 n k
  | ⟨2, _⟩ =>
    show val_main_v30 (F := Ideal) x0 (ix3 n (0 : Fin 1) k) = _
    rw [val_main_v30_apply, show idx_main_v30 (ix3 n (0 : Fin 1) k) = ix2 n k from eq_ix2 _]
    exact v27_apply x0 n k

/-- The squared norm of the shifted row: zero plus the sum of the three squares. -/
theorem v3_apply (x0 : (⟨S4000000x3, .f32⟩ : BufTy).Contents (Elt Ideal)) (n : Fin 4000000) :
    val_main_v3 (F := Ideal) x0 (ix1 n) = sqsum (x0 (ix2 n (0 : Fin 3))) (x0 (ix2 n (1 : Fin 3))) (x0 (ix2 n (2 : Fin 3))) := by
  rw [val_main_v3_apply, val_main_cst_0_apply]
  unfold sqsum
  refine congrArg₂ (· + ·) Cert.Consts.ofBits_zero_f32 (Finset.sum_congr rfl fun k _ => ?_)
  rw [show idx_main_v3 (ix1 n) k = ix2 n k from eq_ix2 _, val_main_v2_apply, v1_apply]
  match k with
  | ⟨0, _⟩ => rfl
  | ⟨1, _⟩ => rfl
  | ⟨2, _⟩ => rfl

theorem v4_apply (x0 : (⟨S4000000x3, .f32⟩ : BufTy).Contents (Elt Ideal)) (n : Fin 4000000) :
    val_main_v4 (F := Ideal) x0 (ix2 n (0 : Fin 1)) = sqsum (x0 (ix2 n (0 : Fin 3))) (x0 (ix2 n (1 : Fin 3))) (x0 (ix2 n (2 : Fin 3))) := by
  rw [val_main_v4_apply, show idx_main_v4 (ix2 n (0 : Fin 1)) = ix1 n from eq_ix1 _, v3_apply]

/-- The norm of the shifted row. -/
theorem v5_apply (x0 : (⟨S4000000x3, .f32⟩ : BufTy).Contents (Elt Ideal)) (n : Fin 4000000) :
    val_main_v5 (F := Ideal) x0 (ix2 n (0 : Fin 1)) = Ideal.sqrt (sqsum (x0 (ix2 n (0 : Fin 3))) (x0 (ix2 n (1 : Fin 3))) (x0 (ix2 n (2 : Fin 3)))) := by
  rw [val_main_v5_apply, v4_apply]
  rfl

/-- The coefficient of the skew matrix. -/
theorem v38_apply (x0 : (⟨S4000000x3, .f32⟩ : BufTy).Contents (Elt Ideal)) (n : Fin 4000000) :
    val_main_v38 (F := Ideal) x0 (ix2 n (0 : Fin 1)) = coefB (x0 (ix2 n (0 : Fin 3))) (x0 (ix2 n (1 : Fin 3))) (x0 (ix2 n (2 : Fin 3))) := by
  rw [val_main_v38_apply, val_main_v37_apply, val_main_v36_apply, val_main_cst_2_apply, val_main_v35_apply,
    v5_apply, v4_apply]
  show Ideal.div (Ideal.ofBits .f32 0x3F800000#32 - Ideal.cos (Ideal.sqrt _)) _ = _
  rw [Cert.Consts.ofBits_one_f32]
  rfl

/-- The coefficient of the squared skew matrix. -/
theorem v41_apply (x0 : (⟨S4000000x3, .f32⟩ : BufTy).Contents (Elt Ideal)) (n : Fin 4000000) :
    val_main_v41 (F := Ideal) x0 (ix2 n (0 : Fin 1)) = coefC (x0 (ix2 n (0 : Fin 3))) (x0 (ix2 n (1 : Fin 3))) (x0 (ix2 n (2 : Fin 3))) := by
  rw [val_main_v41_apply, val_main_v40_apply, val_main_v39_apply, val_main_cst_3_apply, val_main_v34_apply,
    val_main_v33_apply, v5_apply, v4_apply]
  show Ideal.div (Ideal.ofBits .f32 0x3F800000#32 - Ideal.div (Ideal.sin (Ideal.sqrt _)) (Ideal.sqrt _)) _ = _
  rw [Cert.Consts.ofBits_one_f32]
  rfl

theorem v50_apply (x0 : (⟨S4000000x3, .f32⟩ : BufTy).Contents (Elt Ideal)) (n : Fin 4000000) (a b : Fin 3) :
    val_main_v50 (F := Ideal) x0 (ix3 n a b) = coefB (x0 (ix2 n (0 : Fin 3))) (x0 (ix2 n (1 : Fin 3))) (x0 (ix2 n (2 : Fin 3))) := by
  rw [val_main_v50_apply, val_main_v49_apply,
    show idx_main_v49 (idx_main_v50 (ix3 n a b)) = ix2 n (0 : Fin 1) from eq_ix2 _, v38_apply]

theorem v54_apply (x0 : (⟨S4000000x3, .f32⟩ : BufTy).Contents (Elt Ideal)) (n : Fin 4000000) (a b : Fin 3) :
    val_main_v54 (F := Ideal) x0 (ix3 n a b) = coefC (x0 (ix2 n (0 : Fin 3))) (x0 (ix2 n (1 : Fin 3))) (x0 (ix2 n (2 : Fin 3))) := by
  rw [val_main_v54_apply, val_main_v53_apply,
    show idx_main_v53 (idx_main_v54 (ix3 n a b)) = ix2 n (0 : Fin 1) from eq_ix2 _, v41_apply]

/-- The square of the skew matrix, entry by entry. -/
theorem v32_apply (x0 : (⟨S4000000x3, .f32⟩ : BufTy).Contents (Elt Ideal)) (n : Fin 4000000) (a b : Fin 3) :
    val_main_v32 (F := Ideal) x0 (ix3 n a b) = ∑ k : Fin 3, skew (x0 (ix2 n (0 : Fin 3)) + eps) (x0 (ix2 n (1 : Fin 3)) + eps) (x0 (ix2 n (2 : Fin 3)) + eps) a k * skew (x0 (ix2 n (0 : Fin 3)) + eps) (x0 (ix2 n (1 : Fin 3)) + eps) (x0 (ix2 n (2 : Fin 3)) + eps) k b := by
  rw [val_main_v32_apply]
  refine Finset.sum_congr rfl fun k _ => ?_
  rw [show lidx_main_v32 (ix3 n a b) k = ix3 n a k from eq_ix3 _,
    show ridx_main_v32 (ix3 n a b) k = ix3 n k b from eq_ix3 _, v31_apply, v31_apply]

/-- The identity matrix: the comparison of the row number with the column number, as a float. -/
theorem v48_apply (n : Fin 4000000) (a b : Fin 3) :
    val_main_v48 (F := Ideal) (ix3 n a b) = eye a b := by
  rw [val_main_v48_apply, show idx_main_v48 (ix3 n a b) = ix2 a b from eq_ix2 _,
    val_main_v47_apply, val_main_v46_apply, val_main_v45_apply, val_main_v42_apply, val_main_v43_apply,
    val_main_v44_apply, val_main_c_apply]
  show (((IntOp.cmpi .eq (IntOp.addi (BitVec.ofNat 32 a.val) 0#32) (BitVec.ofNat 32 b.val)).toNat : ℝ) : EReal) = eye a b
  match a, b with
  | ⟨0, _⟩, ⟨0, _⟩ => simp [IntOp.cmpi, IntOp.addi, eye]
  | ⟨0, _⟩, ⟨1, _⟩ => simp [IntOp.cmpi, IntOp.addi, eye]
  | ⟨0, _⟩, ⟨2, _⟩ => simp [IntOp.cmpi, IntOp.addi, eye]
  | ⟨1, _⟩, ⟨0, _⟩ => simp [IntOp.cmpi, IntOp.addi, eye]
  | ⟨1, _⟩, ⟨1, _⟩ => simp [IntOp.cmpi, IntOp.addi, eye]
  | ⟨1, _⟩, ⟨2, _⟩ => simp [IntOp.cmpi, IntOp.addi, eye]
  | ⟨2, _⟩, ⟨0, _⟩ => simp [IntOp.cmpi, IntOp.addi, eye]
  | ⟨2, _⟩, ⟨1, _⟩ => simp [IntOp.cmpi, IntOp.addi, eye]
  | ⟨2, _⟩, ⟨2, _⟩ => simp [IntOp.cmpi, IntOp.addi, eye]

/-- The reference's result at entry `(n, a, b)` is the matrix entry `(a, b)` computed from row `n` of the input. -/
theorem ref_apply (x0 : (⟨S4000000x3, .f32⟩ : BufTy).Contents (Elt Ideal)) (n : Fin 4000000) (a b : Fin 3) :
    val_main_v56 (F := Ideal) x0 (ix3 n a b)
      = Cert.RowAlgebra.refEntry (x0 (ix2 n (0 : Fin 3))) (x0 (ix2 n (1 : Fin 3))) (x0 (ix2 n (2 : Fin 3))) a b := by
  rw [val_main_v56_apply, val_main_v52_apply, val_main_v55_apply, val_main_v51_apply, v48_apply, v50_apply,
    v31_apply, v54_apply, v32_apply]
  rfl

end Cert.RefRead

end
-- ==== Proof.Finite.lean ====
/-
  What the precondition says. The precondition compares the absolute value of every input entry with `+∞` and takes
  the conjunction over the whole array; it is all ones exactly when every entry is strictly below `+∞` in absolute
  value, that is, when every entry is a real number.
-/
import proofs.«181935_j18983755448816_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- An extended real whose absolute value `max y (-y)` is strictly below `+∞` is a real number: at `⊥` and at `⊤`
    the absolute value is `⊤`. -/
private theorem real_of_abs_lt_top (y : EReal) (hy : max y (-y) < ⊤) : ∃ t : ℝ, y = (t : EReal) := by
  induction y using EReal.rec with
  | bot => simp at hy
  | coe r => exact ⟨r, rfl⟩
  | top => simp at hy

/-- Under the precondition every entry of the input is a real number. -/
theorem real_of_pre [Cert.Pre_finite_inputs.Facts] (x : FVec Ideal Cert.Pre_finite_inputs.S4000000x3 .f32)
    (h : Cert.Pre_finite_inputs.fn (F := Ideal) x = (fun _ => 1#1)) (i : Cert.Pre_finite_inputs.S4000000x3.Idx) :
    ∃ t : ℝ, x i = (t : EReal) := by
  -- the conjunction over the whole array is 1, so the comparison is 1 at every entry
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  -- at entry `i` the comparison is `|x i| < +∞`, the bound being the pattern of `+∞`
  have htop : Ideal.ofBits .f32 0x7F800000#32 = ⊤ := by simp [Ideal.ofBits, Ideal.ieee]
  change Ideal.cmp .olt (max (x i : EReal) (-(x i : EReal))) (Ideal.ofBits .f32 0x7F800000#32) = 1#1 at hi
  rw [htop] at hi
  have hlt : max (x i : EReal) (-(x i : EReal)) < ⊤ := by
    by_contra hn
    simp [Ideal.cmp, hn] at hi
  exact real_of_abs_lt_top (x i) hlt

end Cert.Finite

end
-- ==== Proof.Bridge.lean ====
/-
  The reference's result is the kernel's function of the input.

  Entry `(n, a, b)` of the reference's result is the matrix entry `refEntry` of row `n` of the input; under the
  precondition the three numbers of that row are real, and for a real row the matrix entry is the kernel's
  written-out entry `3·a + b` of the row, which is entry `(n, a, b)` of `out33`.
-/
import proofs.«181935_j18983755448816_1_alg».proof.Proof.RefRead
import proofs.«181935_j18983755448816_1_alg».proof.Proof.RowAlgebra
import proofs.«181935_j18983755448816_1_alg».proof.Proof.Finite
import proofs.«181935_j18983755448816_1_alg».proof.Proof.ArraySpec

noncomputable section

namespace Cert.Bridge

open Idealize.ShloMosaic Idealize.ShloMosaic.ValueIdx

/-- Under the precondition the reference's result array is `out33` of the input array. -/
theorem ref_eq_out33 (x : FVec Ideal Cert.Pre_finite_inputs.S4000000x3 .f32)
    (hx : Cert.Pre_finite_inputs.fn (F := Ideal) x = (fun _ => 1#1)) :
    Cert.ReferenceIdeal.Read.val_main_v56 (F := Ideal) x = Cert.ArraySpec.out33 (F := Ideal) x := by
  funext i
  obtain ⟨n, a, b, rfl⟩ : ∃ (n : Fin 4000000) (a b : Fin 3), i = ix3 n a b := ⟨i 0, i 1, i 2, eq_ix3 i⟩
  obtain ⟨p, hp⟩ := Cert.Finite.real_of_pre x hx (ix2 n (0 : Fin 3))
  obtain ⟨q, hq⟩ := Cert.Finite.real_of_pre x hx (ix2 n (1 : Fin 3))
  obtain ⟨r, hr⟩ := Cert.Finite.real_of_pre x hx (ix2 n (2 : Fin 3))
  refine (Cert.RefRead.ref_apply x n a b).trans ?_
  rw [Cert.ArraySpec.out33_apply]
  unfold Cert.ArraySpec.rowAt
  rw [hp, hq, hr]
  exact (Cert.RowAlgebra.row_eq_refEntry p q r a b).symm

end Cert.Bridge

end
-- ==== Proof.lean ====
/-
  The certificate: a kernel that maps each row `(a, b, c)` of a [4000000, 3] array to the nine entries of the 3×3
  matrix `I + B·K + C·K²` (`K` the skew matrix of the row shifted by `ε`, `B` and `C` the usual trigonometric
  coefficients of the squared norm), written out entry by entry and computed in blocks of 4096 rows, against the
  reference that builds `K` and `K²` as matrices.

  The frames: both forms of the kernel's program run their 977 grid points, the last block cut at the arrays' end,
  and leave the argument unchanged (`FrameK`, `FrameI`: the body maps rows to rows, so the rows past the arrays' end
  never reach a row inside them); the reference is a straight-line host program. Nothing was rewritten by the
  idealization, so `preserves` is trivial. Over the extended reals both programs end with the same array: the
  kernel's is `out33` of the argument (`ValueI`), and so is the reference's under the precondition (`Bridge`: its
  entry read operation by operation, the row's entries real, and the algebra of the nine entries).
-/
import proofs.«181935_j18983755448816_1_alg».proof.Defs
import proofs.«181935_j18983755448816_1_alg».proof.Proof.Gen.Kernel
import proofs.«181935_j18983755448816_1_alg».proof.Proof.Gen.KernelIdeal
import proofs.«181935_j18983755448816_1_alg».proof.Proof.Gen.ReferenceIdeal
import proofs.«181935_j18983755448816_1_alg».proof.Proof.Gen.Pre_finite_inputs
import proofs.«181935_j18983755448816_1_alg».proof.Proof.Gen.ReferenceIdeal.Run
import proofs.«181935_j18983755448816_1_alg».proof.Proof.Gen.ReferenceIdeal.Read
import proofs.«181935_j18983755448816_1_alg».proof.Proof.FrameK
import proofs.«181935_j18983755448816_1_alg».proof.Proof.FrameI
import proofs.«181935_j18983755448816_1_alg».proof.Proof.ValueI
import proofs.«181935_j18983755448816_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end, nothing faults, its argument ends unchanged. -/
theorem frame_k : Cert.frame_Kernel := fun m ρ _ => Cert.Kernel.Hand.frame (F := Bits) m ρ

/-- The same for the program read over the extended reals. -/
theorem frame_ki : Cert.frame_KernelIdeal := fun m ρ _ => Cert.KernelIdeal.Hand.frame (F := Ideal) m ρ

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `out33` of the argument: the kernel's by its run, the reference's by its run and the
    bridge, the two arguments agreeing. -/
theorem algebraic : Cert.algebraic_KernelIdeal_ReferenceIdeal := by
  intro m ρ m' ρ' hpre hagree
  refine ⟨fun c => Cert.ArraySpec.out33 (F := Ideal)
      (m ((c.tc : Thread Cert.KernelIdeal.nD Cert.KernelIdeal.τ).loc Cert.KernelIdeal.main_arg0)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, hagree c]
  exact Cert.Bridge.ref_eq_out33 _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
